-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x16 : Shape := ⟨2, ![10000, 16]⟩
abbrev S128x32 : Shape := ⟨2, ![128, 32]⟩
abbrev S32x16 : Shape := ⟨2, ![32, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x16 : S_.BroadcastsInDim S10000x16 (![] : Fin 0 → Fin S10000x16.rank)
  reducesTo_S10000x16_S_d0_1 : S10000x16.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x16 .f32) (main_arg5 : FVec F S32x16 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S10000x16 .f32) (main_arg3 : FVec F S128x32 .f32) (main_arg4 : FVec F S32x16 .f32) (main_arg5 : FVec F S32x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x16 .f32 := Host.absf main_arg2
  let main_cst_2 : FVec F S_ .f32 := constant S_ .f32 0x7F800000#32
  let main_v10 : FVec F S10000x16 .f32 := broadcastInDim S10000x16 ![] bcast_S_S10000x16 main_cst_2
  let main_v11 : IVec S10000x16 1 := cmpf .olt main_v9 main_v10
  let main_c_3 : IVec S_ 1 := constantI S_ 1 1#1
  let main_v12 : IVec S_ 1 := (fun x v => Host.reduce IntOp.andi x v reducesTo_S10000x16_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S10000x16 : Shape := ⟨2, ![10000, 16]⟩
abbrev S128x32 : Shape := ⟨2, ![128, 32]⟩
abbrev S32x16 : Shape := ⟨2, ![32, 16]⟩
abbrev S32x32 : Shape := ⟨2, ![32, 32]⟩
abbrev S10000x32 : Shape := ⟨2, ![10000, 32]⟩
abbrev S400x10000 : Shape := ⟨2, ![400, 10000]⟩
abbrev S400x32 : Shape := ⟨2, ![400, 32]⟩
abbrev S400x16 : Shape := ⟨2, ![400, 16]⟩
abbrev S1024x16 : Shape := ⟨2, ![1024, 16]⟩
abbrev S1024x1024 : Shape := ⟨2, ![1024, 1024]⟩

abbrev nBuf : Space → Nat
  | .hbm => 11
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x32, .f32⟩
  | .hbm, ⟨4, _⟩ => ⟨S32x16, .f32⟩
  | .hbm, ⟨5, _⟩ => ⟨S32x16, .f32⟩
  | .hbm, ⟨6, _⟩ => ⟨S32x32, .f32⟩
  | .hbm, ⟨7, _⟩ => ⟨S10000x32, .f32⟩
  | .hbm, ⟨8, _⟩ => ⟨S10000x32, .f32⟩
  | .hbm, ⟨9, _⟩ => ⟨S10000x16, .f32⟩
  | .hbm, ⟨10, _⟩ => ⟨S10000x10000, .f32⟩
  | .local _ .vmem, ⟨0, _⟩ => ⟨S10000x128, .f32⟩
  | .local _ .vmem, ⟨1, _⟩ => ⟨S128x32, .f32⟩
  | .local _ .vmem, ⟨2, _⟩ => ⟨S10000x32, .f32⟩
  | .local _ .vmem, ⟨3, _⟩ => ⟨S400x10000, .f32⟩
  | .local _ .vmem, ⟨4, _⟩ => ⟨S400x10000, .f32⟩
  | .local _ .vmem, ⟨5, _⟩ => ⟨S10000x32, .f32⟩
  | .local _ .vmem, ⟨6, _⟩ => ⟨S32x32, .f32⟩
  | .local _ .vmem, ⟨7, _⟩ => ⟨S400x32, .f32⟩
  | .local _ .vmem, ⟨8, _⟩ => ⟨S400x32, .f32⟩
  | .local _ .vmem, ⟨9, _⟩ => ⟨S400x10000, .f32⟩
  | .local _ .vmem, ⟨10, _⟩ => ⟨S400x10000, .f32⟩
  | .local _ .vmem, ⟨11, _⟩ => ⟨S10000x32, .f32⟩
  | .local _ .vmem, ⟨12, _⟩ => ⟨S400x16, .f32⟩
  | .local _ .vmem, ⟨13, _⟩ => ⟨S400x16, .f32⟩
  | .local _ .vmem, ⟨14, _⟩ => ⟨S400x16, .f32⟩
  | .local _ .vmem, ⟨15, _⟩ => ⟨S400x16, .f32⟩
  | .local _ .vmem, ⟨16, _⟩ => ⟨S1024x16, .f32⟩
  | .local _ .vmem, ⟨17, _⟩ => ⟨S1024x16, .f32⟩
  | .local _ .vmem, ⟨18, _⟩ => ⟨S1024x16, .f32⟩
  | .local _ .vmem, ⟨19, _⟩ => ⟨S1024x16, .f32⟩
  | .local _ .vmem, ⟨20, _⟩ => ⟨S1024x1024, .f32⟩
  | .local _ .vmem, ⟨21, _⟩ => ⟨S1024x1024, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![10, 10], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  concatenates_S32x16_S32x16_S32x32_d1 : Shape.Concatenates [S32x16, S32x16] S32x32 1
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S400x32_S400x32_0_0 : ∀ a, (![0, 0] : Fin 2 → Nat) a + S400x32.size a ≤ S400x32.size a
  h_S400x32 : 0 < S400x32.numel
  slices_S400x32_o0_0_S400x16 : S400x32.Slices ![0, 0] S400x16
  slices_S400x32_o0_16_S400x16 : S400x32.Slices ![0, 16] S400x16
  inb_S400x16_S400x16_0_0 : ∀ a, (![0, 0] : Fin 2 → Nat) a + S400x16.size a ≤ S400x16.size a
  h_S400x16 : 0 < S400x16.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1024_S1024x1024_0_0 : ∀ a, (![0, 0] : Fin 2 → Nat) a + S1024x1024.size a ≤ S1024x1024.size a
  h_S1024x1024 : 0 < S1024x1024.numel
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  dot_S1024x16_S1024x16_S1024x1024_1_1_0_0_n_n_wf : DotDims.WF S1024x16 S1024x16 S1024x1024 [1] [1] [0] [0] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x32.size a ≤ S10000x32.size a
  hwx1_3 : ∀ i : grid1.Coords, EltTy.bits .f32 = 32 ∨ (Rect.block (s := S10000x32) S400x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x16.size a ≤ S10000x16.size a
  hwx2_2 : ∀ i : grid2.Coords, EltTy.bits .f32 = 32 ∨ (Rect.block (s := S10000x16) S400x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S1024x16.size a < S10000x16.size a
  hwx3_0 : ∀ i : grid3.Coords, EltTy.bits .f32 = 32 ∨ (Rect.unit (s := S10000x16) (fun a => cc3_transform_0 i a * S1024x16.size a) (fun a => (Pipeline.Clip.of (cc3_transform_0 i a) (S1024x16.size a) (S10000x16.size a)).extent (S1024x16.size a)) fun a => Pipeline.Clip.inb (Pipeline.Clip.ok_of (hstart3_0 i a))).WholeWords (EltTy.packing .f32)
  hwxs3_0 : ∀ i : grid3.Coords, EltTy.bits .f32 = 32 ∨ (Rect.unit (s := S1024x16) (fun _ => 0) (fun a => (Pipeline.Clip.of (cc3_transform_0 i a) (S1024x16.size a) (S10000x16.size a)).extent (S1024x16.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S1024x16.size a < S10000x16.size a
  hwx3_1 : ∀ i : grid3.Coords, EltTy.bits .f32 = 32 ∨ (Rect.unit (s := S10000x16) (fun a => cc3_transform_1 i a * S1024x16.size a) (fun a => (Pipeline.Clip.of (cc3_transform_1 i a) (S1024x16.size a) (S10000x16.size a)).extent (S1024x16.size a)) fun a => Pipeline.Clip.inb (Pipeline.Clip.ok_of (hstart3_1 i a))).WholeWords (EltTy.packing .f32)
  hwxs3_1 : ∀ i : grid3.Coords, EltTy.bits .f32 = 32 ∨ (Rect.unit (s := S1024x16) (fun _ => 0) (fun a => (Pipeline.Clip.of (cc3_transform_1 i a) (S1024x16.size a) (S10000x16.size a)).extent (S1024x16.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1024x1024.size a < S10000x10000.size a
  hwx3_2 : ∀ i : grid3.Coords, EltTy.bits .f32 = 32 ∨ (Rect.unit (s := S10000x10000) (fun a => cc3_transform_2 i a * S1024x1024.size a) (fun a => (Pipeline.Clip.of (cc3_transform_2 i a) (S1024x1024.size a) (S10000x10000.size a)).extent (S1024x1024.size a)) fun a => Pipeline.Clip.inb (Pipeline.Clip.ok_of (hstart3_2 i a))).WholeWords (EltTy.packing .f32)
  hwxs3_2 : ∀ i : grid3.Coords, EltTy.bits .f32 = 32 ∨ (Rect.unit (s := S1024x1024) (fun _ => 0) (fun a => (Pipeline.Clip.of (cc3_transform_2 i a) (S1024x1024.size a) (S10000x10000.size a)).extent (S1024x1024.size a)) fun a => (Nat.zero_add _).trans_le (Pipeline.Clip.extent_le (Pipeline.Clip.ok_of (hstart3_2 i a)))).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S400x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S400x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S400x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpecClip (Memref.whole main_v3) S1024x16.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v3) S1024x16.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v4) S1024x1024.size cc3_transform_2 reads3_2 true false 2 stage3_2 sem3_2
    hrank3 hreads3_2 hstart3_2 nbuf3_2 (Memref.isWhole_whole _) hwx3_2 hwxs3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x16 : Shape := ⟨2, ![10000, 16]⟩
abbrev S128x32 : Shape := ⟨2, ![128, 32]⟩
abbrev S32x16 : Shape := ⟨2, ![32, 16]⟩
abbrev S10000x32 : Shape := ⟨2, ![10000, 32]⟩
abbrev S_ : Shape := ⟨0, ![]⟩
abbrev S16x10000 : Shape := ⟨2, ![16, 10000]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x32, .f32⟩
  | .hbm, ⟨4, _⟩ => ⟨S32x16, .f32⟩
  | .hbm, ⟨5, _⟩ => ⟨S32x16, .f32⟩
  | .hbm, ⟨6, _⟩ => ⟨S10000x32, .f32⟩
  | .hbm, ⟨7, _⟩ => ⟨S10000x32, .f32⟩
  | .hbm, ⟨8, _⟩ => ⟨S_, .f32⟩
  | .hbm, ⟨9, _⟩ => ⟨S10000x32, .f32⟩
  | .hbm, ⟨10, _⟩ => ⟨S10000x32, .f32⟩
  | .hbm, ⟨11, _⟩ => ⟨S10000x16, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S16x10000, .f32⟩
  | .hbm, ⟨19, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  transposes_S10000x16_S16x10000_1_0 : S10000x16.Transposes [1, 0] S16x10000
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.Spec.lean ====
/-
  The mathematics both programs compute, as whole-array functions on the extended reals, index by index.

  With x : [10000,128], adj : [10000,10000], eps : [10000,16], W1 : [128,32] and two [32,16] weight matrices:
    s1  = x · W1                                 the first layer's projection
    hid = max(adj · s1, 0)                       one adjacency pass and the rectifier
    s2  = hid · w2   (w2 : [32,32])              the second layer's projection, both heads side by side
    mz  = adj · s2                               the second adjacency pass, both heads side by side
    z   = mz[:, :16] + eps * exp(mz[:, 16:])     the reparameterised sample
    dec = z · zᵀ                                 the decoded adjacency
  and, for the form that keeps the two heads apart,
    s3 w = hid · w   (w : [32,16]),   m16 s = adj · s,   zr mu ls = mu + eps * exp ls.
  Every product is a plain finite sum of products; no sum is re-associated between the two forms.
-/
import Idealize.ShloMosaic.PureOps.Ideal
import Idealize.ShloMosaic.Lib.ValueIdx

noncomputable section

namespace Cert.Spec

open Idealize.ShloMosaic Idealize.ShloMosaic.ValueIdx

abbrev A10000x128 : Shape := ⟨2, ![10000, 128]⟩
abbrev A10000x10000 : Shape := ⟨2, ![10000, 10000]⟩
abbrev A10000x16 : Shape := ⟨2, ![10000, 16]⟩
abbrev A10000x32 : Shape := ⟨2, ![10000, 32]⟩
abbrev A128x32 : Shape := ⟨2, ![128, 32]⟩
abbrev A32x16 : Shape := ⟨2, ![32, 16]⟩
abbrev A32x32 : Shape := ⟨2, ![32, 32]⟩

/-- x · W1: entry (i, j) is the sum over k < 128 of x[i,k] · W1[k,j]. -/
def s1 (x : FVec Ideal A10000x128 .f32) (w1 : FVec Ideal A128x32 .f32) : FVec Ideal A10000x32 .f32 :=
  fun i => ∑ k : Fin 128, x (ix2 (i 0) k) * w1 (ix2 k (i 1))

/-- max(adj · s, 0): entry (i, j) is the larger of 0 and the sum over n < 10000 of adj[i,n] · s[n,j]. -/
def hid (adj : FVec Ideal A10000x10000 .f32) (s : FVec Ideal A10000x32 .f32) : FVec Ideal A10000x32 .f32 :=
  fun i => max (∑ n : Fin 10000, adj (ix2 (i 0) n) * s (ix2 n (i 1))) (0 : EReal)

/-- h · w2 for a [32,32] weight: entry (i, j) is the sum over k < 32 of h[i,k] · w2[k,j]. -/
def s2 (h : FVec Ideal A10000x32 .f32) (w2 : FVec Ideal A32x32 .f32) : FVec Ideal A10000x32 .f32 :=
  fun i => ∑ k : Fin 32, h (ix2 (i 0) k) * w2 (ix2 k (i 1))

/-- adj · s for s of 32 columns. -/
def mz (adj : FVec Ideal A10000x10000 .f32) (s : FVec Ideal A10000x32 .f32) : FVec Ideal A10000x32 .f32 :=
  fun i => ∑ n : Fin 10000, adj (ix2 (i 0) n) * s (ix2 n (i 1))

/-- Columns 0..15 of m plus eps times the exponential of columns 16..31 of m. -/
def z (m : FVec Ideal A10000x32 .f32) (eps : FVec Ideal A10000x16 .f32) : FVec Ideal A10000x16 .f32 :=
  fun i => m (ix2 (i 0) ⟨(i 1).val, lt_of_lt_of_le (i 1).isLt (by decide)⟩)
    + eps i * Ideal.exp (m (ix2 (i 0) ⟨(i 1).val + 16, Nat.add_lt_add_right (i 1).isLt 16⟩))

/-- z · zᵀ: entry (i, j) is the sum over k < 16 of z[i,k] · z[j,k]. -/
def dec (zz : FVec Ideal A10000x16 .f32) : FVec Ideal A10000x10000 .f32 :=
  fun i => ∑ k : Fin 16, zz (ix2 (i 0) k) * zz (ix2 (i 1) k)

/-- h · w for a [32,16] weight. -/
def s3 (h : FVec Ideal A10000x32 .f32) (w : FVec Ideal A32x16 .f32) : FVec Ideal A10000x16 .f32 :=
  fun i => ∑ k : Fin 32, h (ix2 (i 0) k) * w (ix2 k (i 1))

/-- adj · s for s of 16 columns. -/
def m16 (adj : FVec Ideal A10000x10000 .f32) (s : FVec Ideal A10000x16 .f32) : FVec Ideal A10000x16 .f32 :=
  fun i => ∑ n : Fin 10000, adj (ix2 (i 0) n) * s (ix2 n (i 1))

/-- mu + eps * exp(ls), entry by entry. -/
def zr (mu ls eps : FVec Ideal A10000x16 .f32) : FVec Ideal A10000x16 .f32 :=
  fun i => mu i + eps i * Ideal.exp (ls i)

end Cert.Spec

end
-- ==== Proof.KI.R0.lean ====
/-
  Region 0 of the idealized kernel program: the first layer's projection, one whole-array block per window
  (no grid, a single point). This module gives the region's proof data at the buffer contents found on entry,
  proves the body's triple and the pipeline's body obligation for any float instance, and then, over the
  extended reals, shows that the result array after the region holds x · W1: entry (i, j) is the sum over
  k < 128 of x[i,k] · W1[k,j].
-/
import proofs.«109806_g28449863369143_cont_9to1_491_7_alg».proof.Proof.Gen.KernelIdeal.Launch
import proofs.«109806_g28449863369143_cont_9to1_491_7_alg».proof.Proof.Gen.KernelIdeal.Skeleton
import proofs.«109806_g28449863369143_cont_9to1_491_7_alg».proof.Proof.Gen.KernelIdeal.Points
import proofs.«109806_g28449863369143_cont_9to1_491_7_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Tactic

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block (all of x) at the point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block (all of W1) at the point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0

/-! ## What the body leaves in the output window's buffer -/

/-- Window 2's staging buffer after the body, from the input windows' blocks: its one store, of the product of
    the two loaded blocks, over the whole buffer. -/
def out0_2 (x0 : Vec F S10000x128 .f32) (x1 : Vec F S128x32 .f32) : Vec F S10000x32 .f32 :=
  View.canon [⟨r0_2, k0_pay1 (View.ld x0 r0_0) (View.ld x1 r0_1)⟩]

/-- The one store is of the whole buffer, so it covers it. -/
theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

/-! ## The body's triple -/

set_option maxHeartbeats 1000000 in
/-- The kernel body on whole staging memrefs, the inputs' at read contents `x0`, `x1` and the output's at anything,
    runs to the continuation holding the inputs' as they were and the output's at `out0_2 x0 x1`. -/
theorem sound_kernel0 (c : Dev nD) (E : Set ℕ) (arg0 : Memref sig .tc .vmem S10000x128 .f32) (harg0 : arg0.IsWhole) (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__s1_kernel arg0 harg0 arg1 harg1 arg2 harg2) K := by
  simp only [cc0__s1_kernel_eq_skeleton]; unfold cc0__s1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body each
    input's buffer at its block and the output's at `out0_2` of the input blocks; the invariant that leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at the point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The value at the extended reals -/

open Idealize.ShloMosaic.ValueIdx

/-- The offset of every access of the body: the origin. -/
theorem off_zero2 : (![0, 0] : Fin 2 → Nat) = fun _ => 0 := funext fun a => by fin_cases a <;> rfl

/-- The left operand's row coordinate is the result's row. -/
theorem lhs_s1_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
/-- The left operand's column coordinate is the contracted one. -/
theorem lhs_s1_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
/-- The right operand's row coordinate is the contracted one. -/
theorem rhs_s1_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
/-- The right operand's column coordinate is the result's column. -/
theorem rhs_s1_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The body's payload at an index: the product into the zero accumulator is the plain sum over the contracted
    coordinate of the products of the entries. -/
theorem pay0_apply (x0 : Vec Ideal S10000x128 .f32) (x1 : Vec Ideal S128x32 .f32) (p : Fin 10000) (q : Fin 32) :
    k0_pay1 (F := Ideal) x0 x1 (ix2 p q) = ∑ k : Fin 128, x0 (ix2 p k) * x1 (ix2 k q) := by
  unfold k0_pay1
  unfold Idealize.ShloMosaic.matmul
  rw [Ideal.matmul_constant_zero_apply, ← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 p q) ((contrEquiv1 dot_S10000x128_S128x32_S10000x32_1_0_0_1_n_n 128 rfl rfl).symm k) = ix2 p k := funext fun a => Fin.ext (by
    match a with
    | ⟨0, _⟩ => exact lhs_s1_0 _ _
    | ⟨1, _⟩ => exact (lhs_s1_1 _ _).trans hk)
  have er : dot_S10000x128_S128x32_S10000x32_1_0_0_1_n_n.rhsIdx (ix2 p q) ((contrEquiv1 dot_S10000x128_S128x32_S10000x32_1_0_0_1_n_n 128 rfl rfl).symm k) = ix2 k q := funext fun a => Fin.ext (by
    match a with
    | ⟨0, _⟩ => exact (rhs_s1_0 _ _).trans hk
    | ⟨1, _⟩ => exact rhs_s1_1 _ _)
  rw [el, er]

/-- What the one point writes back is the block (the whole) of x · W1 of the arrays as the region finds them. -/
theorem flushed0_2_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (Cert.Spec.s1 (V c main_arg0) (V c main_arg3)) := by
  show (cfg0.win 2).cut (grid0.coords t) ((dat0 V c).after 2 t) = _
  rw [after0_2]
  unfold out0_2
  rw [View.canon_unit_zero off_zero2]
  simp only [View.ld_unit_zero (S := S10000x128) off_zero2, View.ld_unit_zero (S := S128x32) off_zero2]
  funext (j : S10000x32.Idx)
  obtain ⟨p, q, rfl⟩ : ∃ (p : Fin 10000) (q : Fin 32), j = ix2 p q := ⟨j 0, j 1, eq_ix2 j⟩
  show k0_pay1 (F := Ideal) (iblk0 V c 0 t) (iblk0 V c 1 t) (ix2 p q) = Cert.Spec.s1 (V c main_arg0) (V c main_arg3) (((cfg0.win 2).blk t).view.emb (ix2 p q))
  have e2 : ((cfg0.win 2).blk t).view.emb (ix2 p q) = ix2 p q := by
    funext a; apply Fin.ext
    match a with
    | ⟨0, _⟩ => show win0_2.index t (0 : Fin 2) * 10000 + 1 * p.val = p.val; have h0 : win0_2.index t (0 : Fin 2) = 0 := rfl; omega
    | ⟨1, _⟩ => show win0_2.index t (1 : Fin 2) * 32 + 1 * q.val = q.val; have h0 : win0_2.index t (1 : Fin 2) = 0 := rfl; omega
  rw [e2, pay0_apply]
  refine Finset.sum_congr rfl fun k _ => ?_
  have e0 : ((cfg0.win 0).blk t).view.emb (ix2 p k) = ix2 p k := by
    funext a; apply Fin.ext
    match a with
    | ⟨0, _⟩ => show win0_0.index t (0 : Fin 2) * 10000 + 1 * p.val = p.val; have h0 : win0_0.index t (0 : Fin 2) = 0 := rfl; omega
    | ⟨1, _⟩ => show win0_0.index t (1 : Fin 2) * 128 + 1 * k.val = k.val; have h0 : win0_0.index t (1 : Fin 2) = 0 := rfl; omega
  have e1 : ((cfg0.win 1).blk t).view.emb (ix2 k q) = ix2 k q := by
    funext a; apply Fin.ext
    match a with
    | ⟨0, _⟩ => show win0_1.index t (0 : Fin 2) * 128 + 1 * k.val = k.val; have h0 : win0_1.index t (0 : Fin 2) = 0 := rfl; omega
    | ⟨1, _⟩ => show win0_1.index t (1 : Fin 2) * 32 + 1 * q.val = q.val; have h0 : win0_1.index t (1 : Fin 2) = 0 := rfl; omega
  have h0 : iblk0 V c 0 t (ix2 p k) = V c main_arg0 (ix2 p k) := congrArg (V c main_arg0) e0
  have h1 : iblk0 V c 1 t (ix2 k q) = V c main_arg3 (ix2 k q) := congrArg (V c main_arg3) e1
  rw [h0, h1]

/-- The one point's block of the result window is the whole array, so every index is covered. -/
theorem cover0_2_arr (i : S10000x32.Idx) :
    ∃ t : Fin cfg0.N, (cfg0.win 2).flush t = true ∧ i ∈ ((cfg0.win 2).blk t).view.set := by
  refine ⟨t0_0, flush0_2 t0_0, ?_⟩
  show i ∈ ((View.whole main_v1).slice (win0_2.rect t0_0)).set
  rw [View.set_slice_whole, Rect.mem_set_unit]
  intro a
  match a with
  | ⟨0, _⟩ => show win0_2.index t0_0 (0 : Fin 2) * 10000 ≤ (i 0).val ∧ (i 0).val < win0_2.index t0_0 (0 : Fin 2) * 10000 + 10000; have h0 : win0_2.index t0_0 (0 : Fin 2) = 0 := rfl; have hi : (i 0).val < 10000 := (i 0).isLt; omega
  | ⟨1, _⟩ => show win0_2.index t0_0 (1 : Fin 2) * 32 ≤ (i 1).val ∧ (i 1).val < win0_2.index t0_0 (1 : Fin 2) * 32 + 32; have h0 : win0_2.index t0_0 (1 : Fin 2) = 0 := rfl; have hi : (i 1).val < 32 := (i 1).isLt; omega

/-- After the region the result array holds x · W1 of the arrays found on entry. -/
theorem final0 (V : (c : Dev nD) → (b : Ref sig .tc) → Buf (Elt Ideal) ((c : Thread nD τ).loc b)) (c : Dev nD) :
    (dat0 (F := Ideal) V c).arrAt 2 cfg0.N = Cert.Spec.s1 (V c main_arg0) (V c main_arg3) :=
  (dat0 (F := Ideal) V c).arrAt_eq_of_cover 2 (Cert.Spec.s1 (V c main_arg0) (V c main_arg3)) (fun t _ => flushed0_2_eq V c t) cover0_2_arr

end Cert.KernelIdeal.Hand

end
-- ==== Proof.KI.R1.lean ====
/-
  Region 1 of the idealized kernel: one adjacency pass, the rectifier and the second layer's projection,
  on a grid of 25 blocks of 400 rows.

  At a point t the body reads the 400-row block t of the adjacency, the whole first-layer projection and the
  whole [32,32] weight, and stores   max(adj_blk · s, 0) · w   over the whole 400-row staging block of the result.
  This module states the region's proof data at a parameter V (the buffers' contents when the region is entered),
  proves the body's obligation for any float instance, and, over the extended reals, reads the result array after
  the region:   s2 (hid adj s) w   of the specification, row by row.
-/
import proofs.«109806_g28449863369143_cont_9to1_491_7_alg».proof.Proof.Gen.KernelIdeal.Launch
import proofs.«109806_g28449863369143_cont_9to1_491_7_alg».proof.Proof.Gen.KernelIdeal.Skeleton
import proofs.«109806_g28449863369143_cont_9to1_491_7_alg».proof.Proof.Gen.KernelIdeal.Points
import proofs.«109806_g28449863369143_cont_9to1_491_7_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's staging buffer holds block t at every point, for any proof data whose array is V's
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The first-layer projection is fetched once; its block index never moves, so its buffer holds the whole
    array at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the weight. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S400x10000 := Rect.unit (s := S400x10000) ![0, 0] S400x10000.size inb_S400x10000_S400x10000_0_0
abbrev r1_1 : Rect S10000x32 := Rect.unit (s := S10000x32) ![0, 0] S10000x32.size inb_S10000x32_S10000x32_0_0
abbrev r1_2 : Rect S32x32 := Rect.unit (s := S32x32) ![0, 0] S32x32.size inb_S32x32_S32x32_0_0
abbrev r1_3 : Rect S400x32 := Rect.unit (s := S400x32) ![0, 0] S400x32.size inb_S400x32_S400x32_0_0

/-! ## What the body leaves in the output window's buffer -/

/-- The result window's staging buffer after the body, from the three input blocks: its one store, over the
    whole block, of the payload at what the three loads read. -/
def out1_3 (x0 : Vec F S400x10000 .f32) (x1 : Vec F S10000x32 .f32) (x2 : Vec F S32x32 .f32) : Vec F S400x32 .f32 :=
  View.canon [⟨r1_3, k1_pay1 (View.ld x0 r1_0) (View.ld x1 r1_1) (View.ld x2 r1_2)⟩]

/-- The one store covers the buffer. -/
theorem cover1_3 (p0 : Vec F S400x32 .f32) (y : S400x32.Idx) :
    ∃ pc ∈ ([⟨r1_3, p0⟩] : List (View.Piece (Elt F) S400x32 .f32)), y ∈ pc.1.set :=
  View.cover_of_tiled [⟨r1_3, p0⟩] S400x32.size (by rfl) y

/-! ## The body's triple -/

set_option maxHeartbeats 1000000 in
/-- The body on whole staging memrefs, the inputs' at contents x0, x1, x2 and the output's at anything, runs to the
    continuation holding the inputs' as they were and the output's at out1_3 of them. -/
theorem sound_kernel1 (c : Dev nD) (E : Set ℕ) (i : grid1.Coords)
    (arg1 : Memref sig .tc .vmem S400x10000 .f32) (harg1 : arg1.IsWhole) (arg2 : Memref sig .tc .vmem S10000x32 .f32) (harg2 : arg2.IsWhole)
    (arg3 : Memref sig .tc .vmem S32x32 .f32) (harg3 : arg3.IsWhole) (arg4 : Memref sig .tc .vmem S400x32 .f32) (harg4 : arg4.IsWhole)
    (x0 : Vec F S400x10000 .f32) (x1 : Vec F S10000x32 .f32) (x2 : Vec F S32x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass_a_kernel i arg1 harg1 arg2 harg2 arg3 harg3 arg4 harg4) K := by
  simp only [cc1__pass_a_kernel_eq_skeleton]; unfold cc1__pass_a_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The region's proof data on core c: the arrays as the region finds them; after the body at point t each input's
    buffer at its block and the output's at out1_3 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

/-! ## The value at the extended reals -/

section Value

open Idealize.ShloMosaic.ValueIdx

/-! ### The two products read at an index

Each product contracts the left operand's second axis with the right operand's first: at result index (p, q) and
contraction position n the left operand is read at (p, n) and the right one at (n, q). -/

theorem lhs1A_0 (j : S400x32.Idx) (k : dot_S400x10000_S10000x32_S400x32_1_0_0_1_n_n.contr.Idx) :
    ((dot_S400x10000_S10000x32_S400x32_1_0_0_1_n_n.lhsIdx j k (0 : Fin 2)) : ℕ) = (j 0).val := by
  simp [DotDims.lhsIdx, dot_S400x10000_S10000x32_S400x32_1_0_0_1_n_n]; rfl
theorem lhs1A_1 (j : S400x32.Idx) (k : dot_S400x10000_S10000x32_S400x32_1_0_0_1_n_n.contr.Idx) :
    ((dot_S400x10000_S10000x32_S400x32_1_0_0_1_n_n.lhsIdx j k (1 : Fin 2)) : ℕ) = (k ⟨0, by decide⟩).val :=
  dot_S400x10000_S10000x32_S400x32_1_0_0_1_n_n.lhsIdx_val_of_single (cl := (1 : Fin 2)) rfl j k
theorem rhs1A_0 (j : S400x32.Idx) (k : dot_S400x10000_S10000x32_S400x32_1_0_0_1_n_n.contr.Idx) :
    ((dot_S400x10000_S10000x32_S400x32_1_0_0_1_n_n.rhsIdx j k (0 : Fin 2)) : ℕ) = (k ⟨0, by decide⟩).val :=
  dot_S400x10000_S10000x32_S400x32_1_0_0_1_n_n.rhsIdx_val_of_single (cr := (0 : Fin 2)) rfl j k
theorem rhs1A_1 (j : S400x32.Idx) (k : dot_S400x10000_S10000x32_S400x32_1_0_0_1_n_n.contr.Idx) :
    ((dot_S400x10000_S10000x32_S400x32_1_0_0_1_n_n.rhsIdx j k (1 : Fin 2)) : ℕ) = (j 1).val := by
  simp [DotDims.rhsIdx, dot_S400x10000_S10000x32_S400x32_1_0_0_1_n_n]; rfl

theorem lhs1B_0 (j : S400x32.Idx) (k : dot_S400x32_S32x32_S400x32_1_0_0_1_n_n.contr.Idx) :
    ((dot_S400x32_S32x32_S400x32_1_0_0_1_n_n.lhsIdx j k (0 : Fin 2)) : ℕ) = (j 0).val := by
  simp [DotDims.lhsIdx, dot_S400x32_S32x32_S400x32_1_0_0_1_n_n]; rfl
theorem lhs1B_1 (j : S400x32.Idx) (k : dot_S400x32_S32x32_S400x32_1_0_0_1_n_n.contr.Idx) :
    ((dot_S400x32_S32x32_S400x32_1_0_0_1_n_n.lhsIdx j k (1 : Fin 2)) : ℕ) = (k ⟨0, by decide⟩).val :=
  dot_S400x32_S32x32_S400x32_1_0_0_1_n_n.lhsIdx_val_of_single (cl := (1 : Fin 2)) rfl j k
theorem rhs1B_0 (j : S400x32.Idx) (k : dot_S400x32_S32x32_S400x32_1_0_0_1_n_n.contr.Idx) :
    ((dot_S400x32_S32x32_S400x32_1_0_0_1_n_n.rhsIdx j k (0 : Fin 2)) : ℕ) = (k ⟨0, by decide⟩).val :=
  dot_S400x32_S32x32_S400x32_1_0_0_1_n_n.rhsIdx_val_of_single (cr := (0 : Fin 2)) rfl j k
theorem rhs1B_1 (j : S400x32.Idx) (k : dot_S400x32_S32x32_S400x32_1_0_0_1_n_n.contr.Idx) :
    ((dot_S400x32_S32x32_S400x32_1_0_0_1_n_n.rhsIdx j k (1 : Fin 2)) : ℕ) = (j 1).val := by
  simp [DotDims.rhsIdx, dot_S400x32_S32x32_S400x32_1_0_0_1_n_n]; rfl

/-- The [400,10000] × [10000,32] product into a zero accumulator, at (p, q): the sum over n < 10000. -/
theorem matmul1A_apply {φ₁ φ₂ : FTy} (a : FVec Ideal S400x10000 φ₁) (b : FVec Ideal S10000x32 φ₂) (p : Fin 400) (q : Fin 32) :
    matmul dot_S400x10000_S10000x32_S400x32_1_0_0_1_n_n none a b (constant (F := Ideal) S400x32 .f32 0x00000000#32) (ix2 p q)
      = ∑ n : Fin 10000, a (ix2 p n) * b (ix2 n q) := by
  show FloatOps.matmul dot_S400x10000_S10000x32_S400x32_1_0_0_1_n_n none a b (constant (F := Ideal) S400x32 .f32 0x00000000#32) (ix2 p q) = _
  rw [Ideal.matmul_constant_zero_apply,
    ← Equiv.sum_comp (contrEquiv1 dot_S400x10000_S10000x32_S400x32_1_0_0_1_n_n 10000 rfl rfl).symm]
  refine Finset.sum_congr rfl fun n _ => ?_
  have c2 := contrEquiv1_symm_val dot_S400x10000_S10000x32_S400x32_1_0_0_1_n_n 10000 rfl rfl n
  have l2 : dot_S400x10000_S10000x32_S400x32_1_0_0_1_n_n.lhsIdx (ix2 p q) ((contrEquiv1 _ 10000 rfl rfl).symm n) = ix2 p n := by
    funext ax; apply Fin.ext
    match ax with
    | ⟨0, _⟩ => exact lhs1A_0 _ _
    | ⟨1, _⟩ => exact (lhs1A_1 _ _).trans c2
  have r2 : dot_S400x10000_S10000x32_S400x32_1_0_0_1_n_n.rhsIdx (ix2 p q) ((contrEquiv1 _ 10000 rfl rfl).symm n) = ix2 n q := by
    funext ax; apply Fin.ext
    match ax with
    | ⟨0, _⟩ => exact (rhs1A_0 _ _).trans c2
    | ⟨1, _⟩ => exact rhs1A_1 _ _
  rw [l2, r2]

/-- The [400,32] × [32,32] product into a zero accumulator, at (p, q): the sum over k < 32. -/
theorem matmul1B_apply {φ₁ φ₂ : FTy} (a : FVec Ideal S400x32 φ₁) (b : FVec Ideal S32x32 φ₂) (p : Fin 400) (q : Fin 32) :
    matmul dot_S400x32_S32x32_S400x32_1_0_0_1_n_n none a b (constant (F := Ideal) S400x32 .f32 0x00000000#32) (ix2 p q)
      = ∑ k : Fin 32, a (ix2 p k) * b (ix2 k q) := by
  show FloatOps.matmul dot_S400x32_S32x32_S400x32_1_0_0_1_n_n none a b (constant (F := Ideal) S400x32 .f32 0x00000000#32) (ix2 p q) = _
  rw [Ideal.matmul_constant_zero_apply,
    ← Equiv.sum_comp (contrEquiv1 dot_S400x32_S32x32_S400x32_1_0_0_1_n_n 32 rfl rfl).symm]
  refine Finset.sum_congr rfl fun k _ => ?_
  have c2 := contrEquiv1_symm_val dot_S400x32_S32x32_S400x32_1_0_0_1_n_n 32 rfl rfl k
  have l2 : dot_S400x32_S32x32_S400x32_1_0_0_1_n_n.lhsIdx (ix2 p q) ((contrEquiv1 _ 32 rfl rfl).symm k) = ix2 p k := by
    funext ax; apply Fin.ext
    match ax with
    | ⟨0, _⟩ => exact lhs1B_0 _ _
    | ⟨1, _⟩ => exact (lhs1B_1 _ _).trans c2
  have r2 : dot_S400x32_S32x32_S400x32_1_0_0_1_n_n.rhsIdx (ix2 p q) ((contrEquiv1 _ 32 rfl rfl).symm k) = ix2 k q := by
    funext ax; apply Fin.ext
    match ax with
    | ⟨0, _⟩ => exact (rhs1B_0 _ _).trans c2
    | ⟨1, _⟩ => exact rhs1B_1 _ _
  rw [l2, r2]

/-! ### The payload at an index -/

/-- The payload as the tree of its operations. -/
theorem pay1_eq (x0 : Vec Ideal S400x10000 .f32) (x1 : Vec Ideal S10000x32 .f32) (x2 : Vec Ideal S32x32 .f32) :
    k1_pay1 (F := Ideal) x0 x1 x2
      = matmul dot_S400x32_S32x32_S400x32_1_0_0_1_n_n none
          (maximumf
            (matmul dot_S400x10000_S10000x32_S400x32_1_0_0_1_n_n none (truncf .bf16 x0 bitsLt_bf16_f32)
              (truncf .bf16 (shapeCast S10000x32 x1 shapeCasts_S10000x32_S10000x32 : FVec Ideal S10000x32 .f32) bitsLt_bf16_f32)
              (constant (F := Ideal) S400x32 .f32 0x00000000#32))
            (broadcast S400x32 (Scalar.ofBits (F := Ideal) .f32 0x00000000#32)))
          (shapeCast S32x32 x2 shapeCasts_S32x32_S32x32 : FVec Ideal S32x32 .f32)
          (constant (F := Ideal) S400x32 .f32 0x00000000#32) := rfl

/-- At (p, q) the payload is the sum over k < 32 of max(Σ_n x0[p,n]·x1[n,k], 0) · x2[k,q]: the changes of format
    are the identity, the casts are to the same shape, the accumulators are zero. -/
theorem pay1_apply (x0 : Vec Ideal S400x10000 .f32) (x1 : Vec Ideal S10000x32 .f32) (x2 : Vec Ideal S32x32 .f32)
    (p : Fin 400) (q : Fin 32) :
    k1_pay1 (F := Ideal) x0 x1 x2 (ix2 p q)
      = ∑ k : Fin 32, max (∑ n : Fin 10000, x0 (ix2 p n) * x1 (ix2 n k)) (0 : EReal) * x2 (ix2 k q) := by
  rw [pay1_eq, matmul1B_apply]
  refine Finset.sum_congr rfl fun k _ => ?_
  rw [maximumf_apply, matmul1A_apply, broadcast_apply, shapeCast_self, shapeCast_self]
  show max (∑ n : Fin 10000, x0 (ix2 p n) * x1 (ix2 n k)) (Ideal.ofBits .f32 0x00000000#32) * x2 (ix2 k q) = _
  rw [Ideal.ofBits_zero_f32]

/-! ### From blocks to the array -/

theorem hz1 : (![0, 0] : Fin 2 → Nat) = fun _ => 0 := funext fun a => by fin_cases a <;> rfl

/-- The printed index maps, decided over the 25 points: the adjacency's block moves with the result's along the
    rows, the two whole operands stay at block (0, 0), and the result's block row is the point's number. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 24 ∧ win1_3.index t (1 : Fin 2) = 0 :=
  (by decide +kernel : ∀ t : Fin grid1.N, _)

/-- Every block row of the result is some point's. -/
theorem idx_onto1 : ∀ q0 : Fin 25, ∃ t : Fin cfg1.N, win1_3.index t = ![q0.val, 0] :=
  (by decide +kernel : ∀ q0 : Fin 25, ∃ t : Fin grid1.N, win1_3.index t = ![q0.val, 0])

/-- What point t writes back is block t of the specification's second projection of the rectified adjacency pass. -/
theorem flushed1_3_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal)
          (Cert.Spec.s2 (Cert.Spec.hid (V c main_arg1) (V c main_v1)) (V c main_v0)) := by
  show (cfg1.win 3).cut (grid1.coords t) ((dat1 V c).after 3 t) = _
  rw [after1_3]
  unfold out1_3
  rw [View.canon_unit_zero hz1]
  simp only [View.ld_unit_zero (S := S400x10000) hz1, View.ld_unit_zero (S := S10000x32) hz1, View.ld_unit_zero (S := S32x32) hz1]
  obtain ⟨e0, e1, e2, e3, e4, e5, e6, e7⟩ := idx_facts1 t
  funext j
  obtain ⟨p, q, rfl⟩ : ∃ (p : Fin 400) (q : Fin 32), j = ix2 p q := ⟨j 0, j 1, eq_ix2 j⟩
  show k1_pay1 (F := Ideal) (iblk1 V c 0 t) (iblk1 V c 1 t) (iblk1 V c 2 t) (ix2 p q)
    = Cert.Spec.s2 (Cert.Spec.hid (V c main_arg1) (V c main_v1)) (V c main_v0) (((cfg1.win 3).blk t).view.emb (ix2 p q))
  rw [pay1_apply]
  unfold Cert.Spec.s2 Cert.Spec.hid
  have h0 : ∀ n : Fin 10000, iblk1 V c 0 t (ix2 p n) = V c main_arg1 (ix2 ((((cfg1.win 3).blk t).view.emb (ix2 p q)) 0) n) := by
    intro n
    show V c main_arg1 (((cfg1.win 0).blk t).view.emb (ix2 p n)) = _
    congr 1
    funext a; apply Fin.ext
    match a with
    | ⟨0, _⟩ => show win1_0.index t (0 : Fin 2) * 400 + 1 * p.val = win1_3.index t (0 : Fin 2) * 400 + 1 * p.val; omega
    | ⟨1, _⟩ => show win1_0.index t (1 : Fin 2) * 10000 + 1 * n.val = n.val; omega
  have h1 : ∀ (n : Fin 10000) (k : Fin 32), iblk1 V c 1 t (ix2 n k) = V c main_v1 (ix2 n k) := by
    intro n k
    show V c main_v1 (((cfg1.win 1).blk t).view.emb (ix2 n k)) = _
    congr 1
    funext a; apply Fin.ext
    match a with
    | ⟨0, _⟩ => show win1_1.index t (0 : Fin 2) * 10000 + 1 * n.val = n.val; omega
    | ⟨1, _⟩ => show win1_1.index t (1 : Fin 2) * 32 + 1 * k.val = k.val; omega
  have h2 : ∀ k : Fin 32, iblk1 V c 2 t (ix2 k q) = V c main_v0 (ix2 k ((((cfg1.win 3).blk t).view.emb (ix2 p q)) 1)) := by
    intro k
    show V c main_v0 (((cfg1.win 2).blk t).view.emb (ix2 k q)) = _
    congr 1
    funext a; apply Fin.ext
    match a with
    | ⟨0, _⟩ => show win1_2.index t (0 : Fin 2) * 32 + 1 * k.val = k.val; omega
    | ⟨1, _⟩ => show win1_2.index t (1 : Fin 2) * 32 + 1 * q.val = win1_3.index t (1 : Fin 2) * 32 + 1 * q.val; omega
  refine Finset.sum_congr rfl fun k _ => ?_
  rw [h2 k]
  congr 2
  exact Finset.sum_congr rfl fun n _ => by rw [h0 n, h1 n k]

/-- An index of the result array is in point t's block iff each coordinate is in the block's range on its axis. -/
theorem mem_blk1_3 (t : Fin cfg1.N) (i : S10000x32.Idx) :
    i ∈ ((cfg1.win 3).blk t).view.set ↔ ∀ a : Fin 2, win1_3.index t a * S400x32.size a ≤ (i a).val ∧ (i a).val < win1_3.index t a * S400x32.size a + S400x32.size a := by
  show i ∈ ((View.whole main_v2).slice (win1_3.rect t)).set ↔ _
  rw [View.set_slice_whole, Rect.mem_set_unit]
  exact Iff.rfl

/-- Row r of the result is in the block of point r / 400: the 25 blocks of 400 rows cover the 10000 rows. -/
theorem cover1_3_arr (i : S10000x32.Idx) :
    ∃ t : Fin cfg1.N, (cfg1.win 3).flush t = true ∧ i ∈ ((cfg1.win 3).blk t).view.set := by
  have hi0 : (i 0).val < 10000 := (i 0).isLt
  have hi1 : (i 1).val < 32 := (i 1).isLt
  obtain ⟨t, ht⟩ := idx_onto1 ⟨(i 0).val / 400, by omega⟩
  have q0 : win1_3.index t (0 : Fin 2) = (i 0).val / 400 := congrFun ht 0
  have q1 : win1_3.index t (1 : Fin 2) = 0 := congrFun ht 1
  refine ⟨t, flush1_3 t, ?_⟩
  rw [mem_blk1_3]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 32 ≤ (i 1).val ∧ (i 1).val < win1_3.index t (1 : Fin 2) * 32 + 32; omega

/-- The result array after the region: the second projection of the rectified adjacency pass over the first-layer
    projection, as the specification states it, at every index. -/
theorem final1 (V : (c : Dev nD) → (b : Ref sig .tc) → Buf (Elt Ideal) ((c : Thread nD τ).loc b)) (c : Dev nD) :
    (dat1 (F := Ideal) V c).arrAt 3 cfg1.N = Cert.Spec.s2 (Cert.Spec.hid (V c main_arg1) (V c main_v1)) (V c main_v0) :=
  (dat1 (F := Ideal) V c).arrAt_eq_of_cover 3 _ (fun t _ => flushed1_3_eq V c t) cover1_3_arr

end Value

end Cert.KernelIdeal.Hand

end
-- ==== Proof.KI.R2.lean ====
/-
  Region 2 of the idealized kernel: the second adjacency pass and the reparameterised sample.

  The region reads a 400-row block of the adjacency matrix, the whole [10000,32] second-layer projection and a
  400-row block of the noise; it writes the 400-row block
      (adj_blk · s2)[:, :16] + eps_blk * exp((adj_blk · s2)[:, 16:])
  of the sample. This module gives the region's proof data at a parameter V (the buffers' contents when the region
  is entered), the triple of its body at every grid point, and, over the extended reals, the whole output array the
  region leaves: the sample z of Spec.lean over the product mz of the entered adjacency matrix and projection.
-/
import proofs.«109806_g28449863369143_cont_9to1_491_7_alg».proof.Proof.Gen.KernelIdeal.Launch
import proofs.«109806_g28449863369143_cont_9to1_491_7_alg».proof.Proof.Gen.KernelIdeal.Skeleton
import proofs.«109806_g28449863369143_cont_9to1_491_7_alg».proof.Proof.Gen.KernelIdeal.Points
import proofs.«109806_g28449863369143_cont_9to1_491_7_alg».proof.Proof.Spec
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the adjacency block) holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole projection) is fetched at the first point only; its block index never moves, so its
    buffer holds the block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the noise block) holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S400x10000 := Rect.unit (s := S400x10000) ![0, 0] S400x10000.size inb_S400x10000_S400x10000_0_0
abbrev r2_1 : Rect S10000x32 := Rect.unit (s := S10000x32) ![0, 0] S10000x32.size inb_S10000x32_S10000x32_0_0
abbrev r2_2 : Rect S400x16 := Rect.unit (s := S400x16) ![0, 0] S400x16.size inb_S400x16_S400x16_0_0

/-! ## What the body leaves in the output window's buffer -/

/-- Window 3's staging buffer after the body, from the input windows' blocks: its one whole-block store. -/
def out2_3 (x0 : Vec F S400x10000 .f32) (x1 : Vec F S10000x32 .f32) (x2 : Vec F S400x16 .f32) : Vec F S400x16 .f32 :=
  View.canon [⟨r2_2, k2_pay1 (View.ld x0 r2_0) (View.ld x1 r2_1) (View.ld x2 r2_2)⟩]

/-- The one store covers the buffer. -/
theorem cover2_3 (p0 : Vec F S400x16 .f32) (y : S400x16.Idx) :
    ∃ pc ∈ ([⟨r2_2, p0⟩] : List (View.Piece (Elt F) S400x16 .f32)), y ∈ pc.1.set :=
  View.cover_of_tiled [⟨r2_2, p0⟩] S400x16.size (by rfl) y

/-! ## The body's triple -/

set_option maxHeartbeats 1000000 in
/-- The body on whole staging memrefs, the inputs' at read contents and the output's at anything, runs to the
    continuation holding the inputs' as they were and the output's at `out2_3` of the inputs'. -/
theorem sound_kernel2 (c : Dev nD) (E : Set ℕ) (i : grid2.Coords) (arg1 : Memref sig .tc .vmem S400x10000 .f32) (harg1 : arg1.IsWhole) (arg2 : Memref sig .tc .vmem S10000x32 .f32) (harg2 : arg2.IsWhole) (arg3 : Memref sig .tc .vmem S400x16 .f32) (harg3 : arg3.IsWhole) (arg4 : Memref sig .tc .vmem S400x16 .f32) (harg4 : arg4.IsWhole)
    (x0 : Vec F S400x10000 .f32) (x1 : Vec F S10000x32 .f32) (x2 : Vec F S400x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__pass_b_kernel i arg1 harg1 arg2 harg2 arg3 harg3 arg4 harg4) K := by
  simp only [cc2__pass_b_kernel_eq_skeleton]; unfold cc2__pass_b_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region on core `c`: the arrays as the region finds them; after the body at point `t` each
    input's buffer at its block and the output's at `out2_3` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

/-! ## The value at the extended reals -/

section Value

open Idealize.ShloMosaic.ValueIdx

/-! ### The block product at an index -/

theorem r2_lhs_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem r2_lhs_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem r2_rhs_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem r2_rhs_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- The product of a 400-row block with the [10000,32] matrix into a zero accumulator, entry (p, q): the plain sum
    over the 10000 contracted positions. -/
theorem r2_matmul_apply {φ₁ φ₂ : FTy} (a : FVec Ideal S400x10000 φ₁) (s : FVec Ideal S10000x32 φ₂) (p : Fin 400) (q : Fin 32) :
    matmul dot_S400x10000_S10000x32_S400x32_1_0_0_1_n_n none a s (constant S400x32 .f32 0x00000000#32) (ix2 p q)
      = ∑ n : Fin 10000, a (ix2 p n) * s (ix2 n q) := by
  show FloatOps.matmul dot_S400x10000_S10000x32_S400x32_1_0_0_1_n_n none a s (constant S400x32 .f32 0x00000000#32) (ix2 p q) = _
  rw [Ideal.matmul_constant_zero_apply, ← Equiv.sum_comp (ValueIdx.contrEquiv1 dot_S400x10000_S10000x32_S400x32_1_0_0_1_n_n 10000 rfl rfl).symm]
  refine Finset.sum_congr rfl fun k _ => ?_
  have hk := ValueIdx.contrEquiv1_symm_val dot_S400x10000_S10000x32_S400x32_1_0_0_1_n_n 10000 rfl rfl k
  have el : dot_S400x10000_S10000x32_S400x32_1_0_0_1_n_n.lhsIdx (ix2 p q) ((ValueIdx.contrEquiv1 dot_S400x10000_S10000x32_S400x32_1_0_0_1_n_n 10000 rfl rfl).symm k) = ix2 p k := funext fun a => Fin.ext (by
    match a with
    | ⟨0, _⟩ => exact r2_lhs_0 _ _
    | ⟨1, _⟩ => exact (r2_lhs_1 _ _).trans hk)
  have er : dot_S400x10000_S10000x32_S400x32_1_0_0_1_n_n.rhsIdx (ix2 p q) ((ValueIdx.contrEquiv1 dot_S400x10000_S10000x32_S400x32_1_0_0_1_n_n 10000 rfl rfl).symm k) = ix2 k q := funext fun a => Fin.ext (by
    match a with
    | ⟨0, _⟩ => exact (r2_rhs_0 _ _).trans hk
    | ⟨1, _⟩ => exact r2_rhs_1 _ _)
  rw [el, er]

/-! ### The payload at an index -/

/-- The exponential of a vector, read at an index. -/
theorem r2_exp_at {s : Shape} {φ : FTy} (a : FVec Ideal s φ) (i : s.Idx) : exp a i = Ideal.exp (a i) := rfl

/-- Entry (p, q) of the block the body stores: column q of the block product plus the noise entry times the
    exponential of column q + 16 of the block product. -/
theorem k2_pay1_apply (x0 : Vec Ideal S400x10000 .f32) (x1 : Vec Ideal S10000x32 .f32) (x2 : Vec Ideal S400x16 .f32)
    (p : Fin 400) (q : Fin 16) (q0 q1 : Fin 32) (h0 : q0.val = 0 + q.val) (h1 : q1.val = 16 + q.val) :
    k2_pay1 (F := Ideal) x0 x1 x2 (ix2 p q)
      = (∑ n : Fin 10000, x0 (ix2 p n) * x1 (ix2 n q0))
        + x2 (ix2 p q) * Ideal.exp (∑ n : Fin 10000, x0 (ix2 p n) * x1 (ix2 n q1)) := by
  unfold k2_pay1
  simp only [shapeCast_self]
  rw [addf_apply, mulf_apply, r2_exp_at]
  rw [slice2_axis1_apply 0 _ slices_S400x32_o0_0_S400x16 p q q0 h0, slice2_axis1_apply 16 _ slices_S400x32_o0_16_S400x16 p q q1 h1,
    r2_matmul_apply, r2_matmul_apply]
  rfl

/-! ### The specification at an index -/

/-- The sample of Spec.lean over the product of Spec.lean, entry `i`: column `i 1` of row `i 0` of the product plus
    the noise entry times the exponential of column `i 1 + 16`. -/
theorem r2_z_mz_apply (adj : FVec Ideal Cert.Spec.A10000x10000 .f32) (s : FVec Ideal Cert.Spec.A10000x32 .f32) (eps : FVec Ideal Cert.Spec.A10000x16 .f32)
    (i : Cert.Spec.A10000x16.Idx) (c0 c1 : Fin 32) (h0 : c0.val = (i 1).val) (h1 : c1.val = (i 1).val + 16) :
    Cert.Spec.z (Cert.Spec.mz adj s) eps i
      = (∑ n : Fin 10000, adj (ix2 (i 0) n) * s (ix2 n c0)) + eps i * Ideal.exp (∑ n : Fin 10000, adj (ix2 (i 0) n) * s (ix2 n c1)) := by
  obtain rfl : c0 = ⟨(i 1).val, lt_of_lt_of_le (i 1).isLt (by decide)⟩ := Fin.ext h0
  obtain rfl : c1 = ⟨(i 1).val + 16, Nat.add_lt_add_right (i 1).isLt 16⟩ := Fin.ext h1
  rfl

/-! ### From blocks to the array -/

theorem r2_zeros : (![0, 0] : Fin 2 → Nat) = fun _ => 0 := funext fun a => by fin_cases a <;> rfl

/-- The printed index maps, decided over the 25 grid points: the adjacency and noise windows move down the rows with
    the output window; the projection window stays at the origin; no window moves along the columns. -/
theorem index_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = win2_3.index t (0 : Fin 2)
    ∧ win2_2.index t (1 : Fin 2) = 0
    ∧ win2_3.index t (0 : Fin 2) ≤ 24
    ∧ win2_3.index t (1 : Fin 2) = 0 :=
  (by decide +kernel : ∀ t : Fin grid2.N, _)

/-- Every 400-row block of the output is some point's. -/
theorem index_onto2 : ∀ (q0 : Fin 25), ∃ t : Fin cfg2.N, win2_3.index t = ![q0.val, 0] :=
  (by decide +kernel : ∀ (q0 : Fin 25), ∃ t : Fin grid2.N, win2_3.index t = ![q0.val, 0])

/-- What point `t` writes back is block `t` of the sample over the entered arrays. -/
theorem flushed2_3_eq (V : (c : Dev nD) → (b : Ref sig .tc) → Buf (Elt Ideal) ((c : Thread nD τ).loc b)) (c : Dev nD) (t : Fin cfg2.N) :
    (dat2 (F := Ideal) V c).flushed 3 t
      = ((cfg2.win 3).blk t).view.read (Elt Ideal) (Cert.Spec.z (Cert.Spec.mz (V c main_arg1) (V c main_v2)) (V c main_arg2)) := by
  show (cfg2.win 3).cut (grid2.coords t) ((dat2 V c).after 3 t) = _
  rw [after2_3]
  unfold out2_3
  rw [View.canon_unit_zero r2_zeros]
  simp only [View.ld_unit_zero (S := S400x10000) r2_zeros, View.ld_unit_zero (S := S10000x32) r2_zeros, View.ld_unit_zero (S := S400x16) r2_zeros]
  obtain ⟨e00, e01, e10, e11, e20, e21, e3b, e31⟩ := index_facts2 t
  funext j
  obtain ⟨p, q, rfl⟩ : ∃ (p : Fin 400) (q : Fin 16), j = ix2 p q := ⟨j 0, j 1, eq_ix2 j⟩
  have hi0 : ((((cfg2.win 3).blk t).view.emb (ix2 p q)) 0).val = win2_3.index t (0 : Fin 2) * 400 + 1 * p.val := rfl
  have hi1 : ((((cfg2.win 3).blk t).view.emb (ix2 p q)) 1).val = win2_3.index t (1 : Fin 2) * 16 + 1 * q.val := rfl
  have a0 : ∀ n : Fin 10000, iblk2 V c 0 t (ix2 p n) = V c main_arg1 (ix2 ((((cfg2.win 3).blk t).view.emb (ix2 p q)) 0) n) := fun n => by
    show V c main_arg1 (((cfg2.win 0).blk t).view.emb (ix2 p n)) = _
    refine congrArg _ (funext fun a => Fin.ext ?_)
    match a with
    | ⟨0, _⟩ => show win2_0.index t (0 : Fin 2) * 400 + 1 * p.val = win2_3.index t (0 : Fin 2) * 400 + 1 * p.val; omega
    | ⟨1, _⟩ => show win2_0.index t (1 : Fin 2) * 10000 + 1 * n.val = n.val; omega
  have a1 : ∀ (n : Fin 10000) (k : Fin 32), iblk2 V c 1 t (ix2 n k) = V c main_v2 (ix2 n k) := fun n k => by
    show V c main_v2 (((cfg2.win 1).blk t).view.emb (ix2 n k)) = _
    refine congrArg _ (funext fun a => Fin.ext ?_)
    match a with
    | ⟨0, _⟩ => show win2_1.index t (0 : Fin 2) * 10000 + 1 * n.val = n.val; omega
    | ⟨1, _⟩ => show win2_1.index t (1 : Fin 2) * 32 + 1 * k.val = k.val; omega
  have a2 : iblk2 V c 2 t (ix2 p q) = V c main_arg2 (((cfg2.win 3).blk t).view.emb (ix2 p q)) := by
    show V c main_arg2 (((cfg2.win 2).blk t).view.emb (ix2 p q)) = _
    refine congrArg _ (funext fun a => Fin.ext ?_)
    match a with
    | ⟨0, _⟩ => show win2_2.index t (0 : Fin 2) * 400 + 1 * p.val = win2_3.index t (0 : Fin 2) * 400 + 1 * p.val; omega
    | ⟨1, _⟩ => show win2_2.index t (1 : Fin 2) * 16 + 1 * q.val = win2_3.index t (1 : Fin 2) * 16 + 1 * q.val; omega
  show k2_pay1 (F := Ideal) (iblk2 V c 0 t) (iblk2 V c 1 t) (iblk2 V c 2 t) (ix2 p q)
    = Cert.Spec.z (Cert.Spec.mz (V c main_arg1) (V c main_v2)) (V c main_arg2) (((cfg2.win 3).blk t).view.emb (ix2 p q))
  rw [k2_pay1_apply _ _ _ p q ⟨q.val, by omega⟩ ⟨q.val + 16, by omega⟩ (Nat.zero_add _).symm (Nat.add_comm _ _),
    r2_z_mz_apply _ _ _ _ ⟨q.val, by omega⟩ ⟨q.val + 16, by omega⟩ (by rw [hi1]; show q.val = _; omega) (by rw [hi1]; show q.val + 16 = _; omega)]
  simp only [a0, a1, a2]

/-- An index of the output array is in point `t`'s block iff each coordinate is in the block's range on its axis. -/
theorem mem_blk2_3 (t : Fin cfg2.N) (i : S10000x16.Idx) :
    i ∈ ((cfg2.win 3).blk t).view.set ↔ ∀ a : Fin 2, win2_3.index t a * S400x16.size a ≤ (i a).val ∧ (i a).val < win2_3.index t a * S400x16.size a + S400x16.size a := by
  show i ∈ ((View.whole main_v3).slice (win2_3.rect t)).set ↔ _
  rw [View.set_slice_whole, Rect.mem_set_unit]
  exact Iff.rfl

/-- The 25 blocks of 400 rows cover the 10000 rows: row r lies in block r / 400. -/
theorem blocks_cover2_3 (i : S10000x16.Idx) : ∃ t : Fin cfg2.N, (cfg2.win 3).flush t = true ∧ i ∈ ((cfg2.win 3).blk t).view.set := by
  have hi0 : (i 0).val < 10000 := (i 0).isLt
  have hi1 : (i 1).val < 16 := (i 1).isLt
  obtain ⟨t, ht⟩ := index_onto2 ⟨(i 0).val / 400, by omega⟩
  have q0 : win2_3.index t (0 : Fin 2) = (i 0).val / 400 := congrFun ht 0
  have q1 : win2_3.index t (1 : Fin 2) = 0 := congrFun ht 1
  refine ⟨t, flush2_3 t, ?_⟩
  rw [mem_blk2_3]
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 16 ≤ (i 1).val ∧ (i 1).val < win2_3.index t (1 : Fin 2) * 16 + 16; omega

end Value

/-- The output array after the region: the sample of Spec.lean over the product of the entered adjacency matrix and
    projection, with the entered noise. -/
theorem final2 (V : (c : Dev nD) → (b : Ref sig .tc) → Buf (Elt Ideal) ((c : Thread nD τ).loc b)) (c : Dev nD) :
    (dat2 (F := Ideal) V c).arrAt 3 cfg2.N = Cert.Spec.z (Cert.Spec.mz (V c main_arg1) (V c main_v2)) (V c main_arg2) :=
  (dat2 (F := Ideal) V c).arrAt_eq_of_cover 3 _ (fun t _ => flushed2_3_eq V c t) blocks_cover2_3

end Cert.KernelIdeal.Hand

end
-- ==== Proof.KI.R3Data.lean ====
/-
  Region 3, the decode: out = z · zᵀ over a 10 × 10 grid of 1024 × 1024 blocks of a 10000 × 10000 result, the two
  operands both the array z [10000, 16] read in 1024-row blocks — window 0 at the block row of the point, window 1
  at its block column. 10 · 1024 > 10000: the last block of each window overhangs the array by 240 rows, its
  transfer is cut at the array's end, and what the staging rows past the end hold is not named by anything.
  Here: each window's block as the fetch reads it (its part inside the array), the staging contents after the body
  on the part the transfers move (filled out with zeros past it, which nothing reads), the body's triple — two whole
  loads, the product of the loaded blocks, a whole store —, the proof data, and the body obligation in the form that
  says nothing of what any buffer holds (enough wherever no claim reads the result).
-/
import proofs.«109806_g28449863369143_cont_9to1_491_7_alg».proof.Proof.Gen.KernelIdeal.Launch
import proofs.«109806_g28449863369143_cont_9to1_491_7_alg».proof.Proof.Gen.KernelIdeal.Skeleton
import proofs.«109806_g28449863369143_cont_9to1_491_7_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t` as the fetch reads it off the array the region finds (`V`): its part inside the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row operand's staging contents at point `t` on the rows inside the array, zeros past them. -/
def in3_0 (c : Dev nD) (t : Fin cfg3.N) : S1024x16.Idx → Elt F .f32 :=
  win3_0.fill (grid3.coords t) (fun _ => Scalar.ofBits .f32 0#32) (iblk3 V c 0 t)
/-- The column operand's likewise. -/
def in3_1 (c : Dev nD) (t : Fin cfg3.N) : S1024x16.Idx → Elt F .f32 :=
  win3_1.fill (grid3.coords t) (fun _ => Scalar.ofBits .f32 0#32) (iblk3 V c 1 t)
/-- The result's staging contents after the body at point `t`: the product of those two. Only its part inside the
    array is ever stated or moved. -/
def out3_2 (c : Dev nD) (t : Fin cfg3.N) : S1024x1024.Idx → Elt F .f32 :=
  k3_pay1 (in3_0 V c t) (in3_1 V c t)

/-! ## The body's triple -/

abbrev r3_in : Rect S1024x16 := Rect.unit (s := S1024x16) ![0, 0] S1024x16.size inb_S1024x16_S1024x16_0_0
abbrev r3_out : Rect S1024x1024 := Rect.unit (s := S1024x1024) ![0, 0] S1024x1024.size inb_S1024x1024_S1024x1024_0_0

/-- What the one store leaves in the result's buffer, as the canon of its one piece over the two loads. -/
def out3c (x0 x1 : Vec F S1024x16 .f32) : Vec F S1024x1024 .f32 :=
  View.canon [⟨r3_out, k3_pay1 (View.ld x0 r3_in) (View.ld x1 r3_in)⟩]

theorem cover3 (p0 : Vec F S1024x1024 .f32) (y : S1024x1024.Idx) :
    ∃ pc ∈ ([⟨r3_out, p0⟩] : List (View.Piece (Elt F) S1024x1024 .f32)), y ∈ pc.1.set :=
  View.cover_of_tiled [⟨r3_out, p0⟩] S1024x1024.size (by rfl) y

set_option maxHeartbeats 1000000 in
/-- The body on whole staging memrefs, the operands' at contents `x0`, `x1` and the result's at anything, runs to the
    continuation holding the operands' as they were and the result's at the stored product. -/
theorem sound_kernel3 (c : Dev nD) (E : Set ℕ) (i : grid3.Coords) (arg2 : Memref sig .tc .vmem S1024x16 .f32) (harg2 : arg2.IsWhole)
    (arg3 : Memref sig .tc .vmem S1024x16 .f32) (harg3 : arg3.IsWhole) (arg4 : Memref sig .tc .vmem S1024x1024 .f32) (harg4 : arg4.IsWhole)
    (x0 x1 : Vec F S1024x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3c x0 x1)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-! ## The proof data -/

/-- Region 3's proof data on core `c`: the arrays as the region finds them; after the body the operands' buffers at
    their blocks and the result's at the product (each stated on the part inside the array); the class's invariant;
    nothing owed. The two operand windows read ONE array: each holds half of it. -/
def dat3 (c : Dev nD) : Dat τ (Elt F) Unit ℕ (UR sig nD τ) ℕ cfg3 c where
  A w := V c (Pipeline.arrRef spec3 w)
  after w t := match w with
    | ⟨0, _⟩ => in3_0 V c t
    | ⟨1, _⟩ => in3_1 V c t
    | ⟨2, _⟩ => out3_2 V c t
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = in3_0 V c t := by dsimp only [dat3]
theorem after3_1 (c : Dev nD) (t : Fin cfg3.N) : (dat3 V c).after 1 t = in3_1 V c t := by dsimp only [dat3]
theorem after3_2 (c : Dev nD) (t : Fin cfg3.N) : (dat3 V c).after 2 t = out3_2 V c t := by dsimp only [dat3]

/-! ## The body obligation that names no contents -/

/-- Every window forgotten: each buffer is handed to the body at some contents and taken back at some contents. -/
abbrev allForgotten : Fin cfg3.W → Bool := fun _ => true

theorem sound_forget3 (c : Dev nD) (t : Fin cfg3.N) :
    iprop((dat3 V c).Φ t.castSucc ∗ (dat3 V c).owesAt () t.castSucc
        ∗ (∃ X, owns (c : Thread nD τ) (st3_0 t) fullShare X)
        ∗ (∃ X, owns (c : Thread nD τ) (st3_1 t) fullShare X)
        ∗ (∃ X, owns (c : Thread nD τ) (st3_2 t) fullShare X))
      ⊢ wp frame (wpE (defs₀ (F := F)) Variants.none c none) Set.univ (bodyAt3 t) (fun _ =>
          iprop((dat3 V c).Φ t.succ ∗ (dat3 V c).owesAt () t.succ
            ∗ (∃ X, owns (c : Thread nD τ) (st3_0 t) fullShare X)
            ∗ (∃ X, owns (c : Thread nD τ) (st3_1 t) fullShare X)
            ∗ (∃ X, owns (c : Thread nD τ) (st3_2 t) fullShare X))) := by
  unfold bodyAt3
  rw [show (dat3 V c).Φ t.succ = (dat3 V c).Φ t.castSucc from rfl,
    show (dat3 V c).owesAt () t.succ = (dat3 V c).owesAt () t.castSucc from rfl]
  iintro ⟨HΦ, Ho, ⟨%X0, H0⟩, ⟨%X1, H1⟩, ⟨%X2, H2⟩⟩
  iapply (sound_kernel3 c Set.univ _ _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

theorem body_forget3 (c : Dev nD) : BodyObligationLoose (dat3 (F := F) V c) (defs₀ (F := F)) Variants.none () Set.univ allForgotten := fun t => by
  rw [bigSep_W3]; try rw [bigSep_W3]
  simp only [allForgotten]
  exact sound_forget3 V c t

/-! ## What the exact obligation needs of the product: its part inside the array ignores the fillers -/

/-- At the extended reals, the part of the product block that lies inside the result array (the part the write-back
    moves) is the same whatever the two operand buffers hold past the array's end: entry (r, s) of the product is a
    sum over the 16 columns of row r of the first operand against row s of the second, and for (r, s) inside the
    result both rows lie inside the operand array. Proved where the products are read at an index. -/
def CutIndep : Prop :=
  ∀ (i : grid3.Coords) (d0 d0' d1 d1' : S1024x16.Idx → Elt Ideal .f32)
    (b0 : (win3_0.xblock i).Idx → Elt Ideal .f32) (b1 : (win3_1.xblock i).Idx → Elt Ideal .f32),
    win3_2.cut i (k3_pay1 (F := Ideal) (win3_0.fill i d0 b0) (win3_1.fill i d1 b1))
      = win3_2.cut i (k3_pay1 (F := Ideal) (win3_0.fill i d0' b0) (win3_1.fill i d1' b1))

end Cert.KernelIdeal.Hand

end
-- ==== Proof.KI.Run.lean ====
/-
  The run of the whole program: @main is one host stretch (the two [32,16] weights laid side by side) and then the
  four kernel regions in order. Between two items the TensorCore holds every unscoped buffer whole, at contents
  computed by a fold from the launch memory: after the host stretch the concatenation is in place; after each of
  regions 0, 1, 2 the region's result array holds what its write-backs leave (named exactly) and everything else is as
  it was. Region 3's two operand windows read ONE array, so at its entry that array's full share is dealt to them in
  halves; and of what region 3 leaves in its result only a relation is kept — `fgt3` says which of its windows the
  body obligation names: none forgotten where the result's value is wanted, all forgotten where only the frame is.
  The post read at the end: every argument array as launched, and the result array at contents the proof data allows.
-/
import proofs.«109806_g28449863369143_cont_9to1_491_7_alg».proof.Proof.KI.R0
import proofs.«109806_g28449863369143_cont_9to1_491_7_alg».proof.Proof.KI.R1
import proofs.«109806_g28449863369143_cont_9to1_491_7_alg».proof.Proof.KI.R2
import proofs.«109806_g28449863369143_cont_9to1_491_7_alg».proof.Proof.KI.R3Data
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary: a fold through @main -/

/-- Core `c`'s buffers at launch. -/
abbrev W0 : Dev nD → Valuation τ sig (Elt F) := fun c b => m (c, b)
/-- After the host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ### The host stretch writes the concatenation's buffer only -/

theorem hostOps0_fresh : (hostOps0 : List (HloOp τ sig (Elt F))).Forall fun op => op.fresh = ∅ := by
  simp only [List.Forall]; repeat' constructor

theorem W1_of_ne (c : Dev nD) (b : Ref sig .tc) (hb : b ≠ main_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb))

/-! ### The arguments reach region 3's entry as launched -/

theorem V4_main_arg0 (c : Dev nD) : V4 m c main_arg0 = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_ne m c main_arg0 (by decide)
    _ = m ((c : Thread nD τ).loc main_arg0) := rfl
theorem V4_main_arg1 (c : Dev nD) : V4 m c main_arg1 = m ((c : Thread nD τ).loc main_arg1) :=
  calc W4 m c (Proc.devRef .tc main_arg1)
    _ = W3 m c (Proc.devRef .tc main_arg1) := (W4_arr m c 0).trans (((dat2 (V3 m) c).arrAt_in 0 rfl _).trans (A_eq2 (V3 m) c 0))
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl
theorem V4_main_arg2 (c : Dev nD) : V4 m c main_arg2 = m ((c : Thread nD τ).loc main_arg2) :=
  calc W4 m c (Proc.devRef .tc main_arg2)
    _ = W3 m c (Proc.devRef .tc main_arg2) := (W4_arr m c 2).trans (((dat2 (V3 m) c).arrAt_in 2 rfl _).trans (A_eq2 (V3 m) c 2))
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl
theorem V4_main_arg3 (c : Dev nD) : V4 m c main_arg3 = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := (W2_arr m c 1).trans (((dat0 (V1 m) c).arrAt_in 1 rfl _).trans (A_eq0 (V1 m) c 1))
    _ = W0 m c (Proc.devRef .tc main_arg3) := W1_of_ne m c main_arg3 (by decide)
    _ = m ((c : Thread nD τ).loc main_arg3) := rfl
theorem V4_main_arg4 (c : Dev nD) : V4 m c main_arg4 = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of_ne m c main_arg4 (by decide)
    _ = m ((c : Thread nD τ).loc main_arg4) := rfl
theorem V4_main_arg5 (c : Dev nD) : V4 m c main_arg5 = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of_ne m c main_arg5 (by decide)
    _ = m ((c : Thread nD τ).loc main_arg5) := rfl

/-! ## The proof data families and the thread state -/

/-- No pallas_call has a prefetched table. -/
abbrev adm : (p : Fin 4) → (pcfgs (F := F) p).Adm := fun p => (cfgs p).toPCfg_adm
/-- Every pipeline's exact proof data, each at its region's entry contents (a literal match). -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c

variable (fgt3 : Fin cfg3.W → Bool)

/-- The same read relationally, region 3's with the windows `fgt3` marks forgotten. -/
def rdats : (p : Fin 4) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V2 m) c).toR
  | ⟨2, _⟩ => fun c => (dat2 (V3 m) c).toR
  | ⟨3, _⟩ => fun c => (dat3 (V4 m) c).toRForget fgt3

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- The last thread state (the chain ends at it beside the core owing nothing): every unscoped buffer that is no array
    of region 3 at region 3's entry contents, region 3's arrays at contents its proof data allows after the last
    write-back, the generator register at some state. -/
abbrev Tₙ (c : Dev nD) : sProp 𝕄 :=
  iprop(Pipeline.unscopedRest (Ix := Unit) (Name := ℕ) (U := UR sig nD τ) (Lvl := ℕ) spec3 c (V4 m c)
    ∗ (rdats m fgt3 3 c).arraysAt cfg3.N ∗ ∃ r, prngReg c r)

/-! ## The regions as segments -/

-- a library lemma stated over `pin pcs a p` unifies with the pinned configuration only when unification may unfold plain
-- definitions in a metavariable's type
set_option backward.isDefEq.respectTransparency.types false in
/-- Region 0 over the thread state: entered from every unscoped buffer at `W1`, left at `W2`. Its arrays are split
    out of the unscoped buffers and put back at the exit contents; the generator register goes into the class's invariant
    and comes back; nothing is owed; the kernel has no semaphore of its own. -/
def reg0 : Pipeline.RDat.RegionSeg (pcfgs (F := F)) adm (rdats m fgt3) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m fgt3) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    have hpost : ((rdats m fgt3 0 c).arraysAt (Pipeline.pin (pcfgs (F := F)) adm 0).N : sProp 𝕄)
        ⊢ (pdats m 0 c).arrays ((pdats m 0 c).arrAt · cfg0.N) := (dat0 (V1 m) c).toR_arraysAt_post cfg0.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Region 1 over the thread state: entered from every unscoped buffer at `W2`, left at `W3`. Its arrays are split
    out of the unscoped buffers and put back at the exit contents; the generator register goes into the class's invariant
    and comes back; nothing is owed; the kernel has no semaphore of its own. -/
def reg1 : Pipeline.RDat.RegionSeg (pcfgs (F := F)) adm (rdats m fgt3) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose.toR
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m fgt3) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    have hpost : ((rdats m fgt3 1 c).arraysAt (Pipeline.pin (pcfgs (F := F)) adm 1).N : sProp 𝕄)
        ⊢ (pdats m 1 c).arrays ((pdats m 1 c).arrAt · cfg1.N) := (dat1 (V2 m) c).toR_arraysAt_post cfg1.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Region 2 over the thread state: entered from every unscoped buffer at `W3`, left at `W4`. Its arrays are split
    out of the unscoped buffers and put back at the exit contents; the generator register goes into the class's invariant
    and comes back; nothing is owed; the kernel has no semaphore of its own. -/
def reg2 : Pipeline.RDat.RegionSeg (pcfgs (F := F)) adm (rdats m fgt3) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose.toR
  hwaits := Pipeline.RDat.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.RDat.arrays_of_unscopedBufs (p := 2) (pcfgs (F := F)) adm (rdats m fgt3) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m fgt3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    have hpost : ((rdats m fgt3 2 c).arraysAt (Pipeline.pin (pcfgs (F := F)) adm 2).N : sProp 𝕄)
        ⊢ (pdats m 2 c).arrays ((pdats m 2 c).arrAt · cfg2.N) := (dat2 (V3 m) c).toR_arraysAt_post cfg2.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

/-- The buffers behind region 3's arrays are two: the operand array and the result array. -/
theorem arrs3 : Finset.univ.image (Pipeline.arrRef spec3) = {main_v3, main_v4} := by decide

/-- The buffers behind region 3's arrays, each whole at the full share at the entry contents, are the proof data's
    arrays at entry: the operand array's share splits into its two halves, one for each window that reads it; the result
    array goes to its window whole. -/
theorem arrays3_of_bufs (c : Dev nD) :
    (Pipeline.arrBufs (Ix := Unit) (Name := ℕ) (U := UR sig nD τ) (Lvl := ℕ) (Pipeline.pin (pcfgs (F := F)) adm 3).spec c (V4 m c) : sProp 𝕄)
      ⊢ (rdats m fgt3 3 c).arrays (rdats m fgt3 3 c).A := by
  unfold Pipeline.arrBufs Pipeline.RDat.arrays
  rw [show Finset.univ.image (Pipeline.arrRef (Pipeline.pin (pcfgs (F := F)) adm 3).spec) = {main_v3, main_v4} from arrs3,
    BI.bigSep_insert (by decide), BI.bigSep_singleton, bigSep_W3]
  have e0 : (cfg3.win 0).arr.view.set = Finset.univ := (arr_whole3 0).set_eq_univ
  have e2 : (cfg3.win 2).arr.view.set = Finset.univ := (arr_whole3 2).set_eq_univ
  show iprop((((c : Thread nD τ).loc main_v3) ↦{fullShare} V4 m c main_v3) ∗ (((c : Thread nD τ).loc main_v4) ↦{fullShare} V4 m c main_v4))
    ⊢ iprop(((cfg3.win 0).arr.view.loc (c : Thread nD τ) ↦[(cfg3.win 0).arr.view.set]{fullShare.left} V4 m c main_v3)
      ∗ ((cfg3.win 1).arr.view.loc (c : Thread nD τ) ↦[(cfg3.win 1).arr.view.set]{fullShare.right} V4 m c main_v3)
      ∗ ((cfg3.win 2).arr.view.loc (c : Thread nD τ) ↦[(cfg3.win 2).arr.view.set]{fullShare} V4 m c main_v4))
  rw [e0, e2]
  iintro ⟨H3, H4⟩
  ihave H3' := (pointsTo_share (PosShare.mem_left_op_right fullShare)).1 $$ H3
  icases H3' with ⟨H3l, H3r⟩
  isplitl [H3l]; · iexact H3l
  isplitl [H3r]; · iexact H3r
  iexact H4

set_option backward.isDefEq.respectTransparency.types false in
/-- Region 3 over the thread state: entered from every unscoped buffer at `W4`; the operand array's full share is dealt
    in halves to the two windows that read it, the result array goes to its window whole; left holding the rest as
    entered and its arrays at contents the proof data allows. -/
def reg3 (hbody3 : ∀ c, BodyObligationLoose (dat3 (F := F) (V4 m) c) (defs₀ (F := F)) Variants.none () Set.univ fgt3) :
    Pipeline.RDat.RegionSeg (pcfgs (F := F)) adm (rdats m fgt3) () defs₀ 𝒱₀ L lv 3 where
  win := winFacts₀3
  block_pos := block_pos3
  stage_whole := stage_whole3
  K := PEmpty
  osem k := k.elim
  ho := Pipeline.OwnSemFacts.none _
  hbody c := (hbody3 c).toRForget
  hwaits := Pipeline.RDat.hwaits_of_owed_zero _ _ _ _ L lv 3 fun _ _ => rfl
  pre c := iprop(StableHlo.held (c : Thread nD τ) (Pipeline.ucRefs τ sig) (W4 m c) ∗ R c)
  post c := iprop(Tₙ m fgt3 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.unscopedBufs_split₀ (Pipeline.pin (pcfgs (F := F)) adm) 3 winFacts₀3.arr_unscoped c
      (Ix := Unit) (Name := ℕ) (U := UR sig nD τ) (Lvl := ℕ) (V4 m c)
    rw [Pipeline.unscopedBufs_held] at hsplit
    rw [hsplit]
    iintro ⟨⟨⟨Ha, Hrest⟩, Hp, HO⟩, -, -⟩
    ihave Ha' := (arrays3_of_bufs m fgt3 c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m fgt3 3 c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha HY Hrest]
    · isplitl [Hrest]; · iexact Hrest
      isplitl [Ha]; · iexact Ha
      iexact HY
    unfold Pipeline.RDat.owesAt Pipeline.owesWithin
    icases HO with ⟨%W, -, HO⟩; iexists W; iexact HO

/-! ## @main as segments, and the launch -/

/-- @main's five segments in order. -/
abbrev segs (hbody3 : ∀ c, BodyObligationLoose (dat3 (F := F) (V4 m) c) (defs₀ (F := F)) Variants.none () Set.univ fgt3) :
    List (Pipeline.RDat.Seg (pcfgs (F := F)) adm (rdats m fgt3) () defs₀ 𝒱₀ L lv) :=
  [ .host (hseg0 m), .region (reg0 m fgt3), .region (reg1 m fgt3), .region (reg2 m fgt3), .region (reg3 m fgt3 hbody3) ]

/-- @main is the run of the segments. -/
theorem main_run (hbody3 : ∀ c, BodyObligationLoose (dat3 (F := F) (V4 m) c) (defs₀ (F := F)) Variants.none () Set.univ fgt3) (c : Dev nD) :
    main (F := F) c = Pipeline.RDat.Seg.run (segs m fgt3 hbody3) := (main_chain c).trans (by chain_rfl)

/-- The unscoped references that are no array of region 3. -/
abbrev rest3 : Finset (Ref sig .tc) := (Finset.univ.filter fun b : Ref sig .tc => ¬ b.isScoped) \ Finset.univ.image (Pipeline.arrRef spec3)

variable (ρ : Dev nD → PrngReg)

set_option backward.isDefEq.respectTransparency.types false in
/-- THE RUN, at any float instance: from any memory with zero counters every weakly fair execution of @main terminates,
    nothing faulting; every final memory has the result array at contents region 3's proof data allows after its last
    write-back, and each argument array as launched. -/
theorem run_main (hbody3 : ∀ c, BodyObligationLoose (dat3 (F := F) (V4 m) c) (defs₀ (F := F)) Variants.none () Set.univ fgt3) :
    θ_run defs (onTc (τ := τ) (main (F := F))) ⟨m, fun _ => 0, ρ⟩ (fun r => ∀ c : Dev nD,
      ((dat3 (V4 m) c).toRForget fgt3).ArrAt 2 cfg3.N (r.2.mem ((c.tc : Thread nD τ).loc main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.RDat.θ_run_regions_kit (pcfgs (F := F)) adm (rdats m fgt3) () cellOf_inj emb₁ defs₀ 𝒱₀ L lv m ρ main (segs m fgt3 hbody3)
    (fun c Q => by rw [main_run m fgt3 hbody3 c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m fgt3)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => (∀ b ∈ rest3, s.mem ((c : Thread nD τ).loc b) = V4 m c b)
      ∧ ∀ w, (rdats m fgt3 3 c).ArrAt w cfg3.N (s.mem ((cfg3.win w).arr.view.loc (c : Thread nD τ))))
    (hfin := fun c s' => by
      iintro ⟨⟨Hrest, Ha, -⟩, HSI⟩
      unfold Pipeline.unscopedRest
      ihave H1 := (pointsTo_read_all rest3 (fun b => (c : Thread nD τ).loc b) (V4 m c) s') $$ [Hrest HSI]
      · isplitl [Hrest] <;> iassumption
      icases H1 with ⟨%h1, HSI⟩
      ihave H2 := (Pipeline.RDat.arrays_read (p := 3) (pcfgs (F := F)) adm (rdats m fgt3) arr_whole3 c cfg3.N s') $$ [Ha HSI]
      · isplitl [Ha] <;> iassumption
      icases H2 with ⟨%h2, HSI⟩
      imodintro
      isplitr; · ipureintro; exact ⟨h1, h2⟩
      iexact HSI)
    (hQ := fun s h c =>
      ⟨(h c).2 2,
        ((h c).1 main_arg0 (by decide)).trans (V4_main_arg0 m c),
        ((h c).1 main_arg1 (by decide)).trans (V4_main_arg1 m c),
        ((h c).1 main_arg2 (by decide)).trans (V4_main_arg2 m c),
        ((h c).1 main_arg3 (by decide)).trans (V4_main_arg3 m c),
        ((h c).1 main_arg4 (by decide)).trans (V4_main_arg4 m c),
        ((h c).1 main_arg5 (by decide)).trans (V4_main_arg5 m c)⟩)

end Cert.KernelIdeal.Hand

end
-- ==== Proof.KI.R3Value.lean ====
/-
  Region 3, the decode out = z · zᵀ, read at the extended reals.

  The body's payload at entry (r, s) of its 1024 × 1024 block is the sum over the 16 columns k of x0[r,k] · x1[s,k],
  x0 and x1 the two loaded 1024 × 16 blocks: the format changes and the same-shape casts are the identity here, and a
  product into a zero accumulator is the plain sum.

  The operand array has 10000 rows and is read in blocks of 1024: the last block overhangs the array by 240 rows, so
  that the staging buffer's rows past the array's end hold a filler nothing names. The result block at grid point
  (p, q) is cut the same way on both axes: its rows at the cut of the row operand's block p, its columns at the cut of
  the column operand's block q. So an entry (r, s) of the result block that lies inside the result array reads row r
  of the row operand and row s of the column operand inside the operand array, where the staging buffers hold the
  fetched blocks whatever the filler is; sixteen columns are never cut.

  From blocks to the array: entry (r, s) of the block at point (p, q) is entry (p · 1024 + r, q · 1024 + s) of the
  array, the operand rows likewise p · 1024 + r and q · 1024 + s, so what a point writes back is its block of
  z · zᵀ; entry (R, S) of the array lies in the block of the point (R / 1024, S / 1024), and the blocks cover the array.
-/
import proofs.«109806_g28449863369143_cont_9to1_491_7_alg».proof.Proof.KI.R3Data
import proofs.«109806_g28449863369143_cont_9to1_491_7_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The product read at an index -/

/-- The left operand's index of output entry j and contraction index q has j's row on axis 0, -/
theorem lhs3_0 (j : S1024x1024.Idx) (q : dot_S1024x16_S1024x16_S1024x1024_1_1_0_0_n_n.contr.Idx) :
    (dot_S1024x16_S1024x16_S1024x1024_1_1_0_0_n_n.lhsIdx j q 0).val = (j 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
/-- and the contraction coordinate on axis 1; -/
theorem lhs3_1 (j : S1024x1024.Idx) (q : dot_S1024x16_S1024x16_S1024x1024_1_1_0_0_n_n.contr.Idx) :
    (dot_S1024x16_S1024x16_S1024x1024_1_1_0_0_n_n.lhsIdx j q 1).val = (q ⟨0, by decide⟩).val :=
  dot_S1024x16_S1024x16_S1024x1024_1_1_0_0_n_n.lhsIdx_val_of_single rfl j q
/-- the right operand's has j's COLUMN on axis 0 (the right operand is contracted along its columns too), -/
theorem rhs3_0 (j : S1024x1024.Idx) (q : dot_S1024x16_S1024x16_S1024x1024_1_1_0_0_n_n.contr.Idx) :
    (dot_S1024x16_S1024x16_S1024x1024_1_1_0_0_n_n.rhsIdx j q 0).val = (j 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
/-- and the contraction coordinate on axis 1. -/
theorem rhs3_1 (j : S1024x1024.Idx) (q : dot_S1024x16_S1024x16_S1024x1024_1_1_0_0_n_n.contr.Idx) :
    (dot_S1024x16_S1024x16_S1024x1024_1_1_0_0_n_n.rhsIdx j q 1).val = (q ⟨0, by decide⟩).val :=
  dot_S1024x16_S1024x16_S1024x1024_1_1_0_0_n_n.rhsIdx_val_of_single rfl j q

/-- The payload at entry (r, s): the sum over the 16 columns k of x0[r,k] · x1[s,k]. -/
theorem k3_pay1_apply (x0 x1 : S1024x16.Idx → Elt Ideal .f32) (r s : Fin 1024) :
    k3_pay1 (F := Ideal) x0 x1 (ix2 r s) = ∑ k : Fin 16, (x0 (ix2 r k) : EReal) * x1 (ix2 s k) := by
  unfold k3_pay1
  simp only [shapeCast_self]
  refine (Ideal.matmul_constant_zero_apply dot_S1024x16_S1024x16_S1024x1024_1_1_0_0_n_n none _ _ (ix2 r s)).trans ?_
  rw [← Equiv.sum_comp (contrEquiv1 dot_S1024x16_S1024x16_S1024x1024_1_1_0_0_n_n 16 rfl rfl).symm]
  refine Finset.sum_congr rfl fun k _ => ?_
  simp only [truncf_apply]
  have hk := contrEquiv1_symm_val dot_S1024x16_S1024x16_S1024x1024_1_1_0_0_n_n 16 rfl rfl k
  have el : dot_S1024x16_S1024x16_S1024x1024_1_1_0_0_n_n.lhsIdx (ix2 r s) ((contrEquiv1 dot_S1024x16_S1024x16_S1024x1024_1_1_0_0_n_n 16 rfl rfl).symm k) = ix2 r k := funext fun a => Fin.ext (by
    match a with
    | ⟨0, _⟩ => exact lhs3_0 _ _
    | ⟨1, _⟩ => exact (lhs3_1 _ _).trans hk)
  have er : dot_S1024x16_S1024x16_S1024x1024_1_1_0_0_n_n.rhsIdx (ix2 r s) ((contrEquiv1 dot_S1024x16_S1024x16_S1024x1024_1_1_0_0_n_n 16 rfl rfl).symm k) = ix2 s k := funext fun a => Fin.ext (by
    match a with
    | ⟨0, _⟩ => exact rhs3_0 _ _
    | ⟨1, _⟩ => exact (rhs3_1 _ _).trans hk)
  rw [el, er]

/-! ## The part of the product inside the result array ignores the fillers -/

/-- Where the transfer moves a block's entry, the filled block reads the fetched part there, whatever the filler. -/
theorem fill_indep {G : Pipeline.Grid} (w : Window sig G) {α : Type} (i : G.Coords) (d d' : w.block.Idx → α)
    (g : (w.xblock i).Idx → α) (j : w.block.Idx) (h : w.moved i j = true) : w.fill i d g j = w.fill i d' g j := by
  unfold Pipeline.Window.fill
  rw [dif_pos h, dif_pos h]

/-- The result block's row cut at a grid point is the row operand's row cut there, -/
theorem xsize3_20 (i : grid3.Coords) : win3_2.xsize i 0 = win3_0.xsize i 0 := rfl
/-- its column cut the column operand's row cut, -/
theorem xsize3_21 (i : grid3.Coords) : win3_2.xsize i 1 = win3_1.xsize i 0 := rfl
/-- and the operands' sixteen columns are never cut. -/
theorem xsize3_01 (i : grid3.Coords) : win3_0.xsize i 1 = 16 := by
  show (Pipeline.Clip.of (0#32 : BitVec 32).toNat 16 16).extent 16 = 16
  decide
theorem xsize3_11 (i : grid3.Coords) : win3_1.xsize i 1 = 16 := by
  show (Pipeline.Clip.of (0#32 : BitVec 32).toNat 16 16).extent 16 = 16
  decide

theorem cutIndep : CutIndep := by
  intro i d0 d0' d1 d1' b0 b1
  funext j
  obtain ⟨r, s, hrs⟩ : ∃ (r s : Fin 1024), win3_2.xinj i j = ix2 r s := ⟨_, _, eq_ix2 _⟩
  have hr : r.val < win3_2.xsize i 0 := by
    have := congrArg (fun x => (x 0).val) hrs; exact this ▸ (j 0).isLt
  have hs : s.val < win3_2.xsize i 1 := by
    have := congrArg (fun x => (x 1).val) hrs; exact this ▸ (j 1).isLt
  show k3_pay1 (F := Ideal) (win3_0.fill i d0 b0) (win3_1.fill i d1 b1) (win3_2.xinj i j)
    = k3_pay1 (F := Ideal) (win3_0.fill i d0' b0) (win3_1.fill i d1' b1) (win3_2.xinj i j)
  rw [hrs, k3_pay1_apply, k3_pay1_apply]
  refine Finset.sum_congr rfl fun k _ => ?_
  have m0 : win3_0.moved i (ix2 r k) = true := (win3_0.moved_iff i _).mpr fun a => by
    match a with
    | ⟨0, _⟩ => exact (xsize3_20 i) ▸ hr
    | ⟨1, _⟩ => exact (xsize3_01 i).symm ▸ k.isLt
  have m1 : win3_1.moved i (ix2 s k) = true := (win3_1.moved_iff i _).mpr fun a => by
    match a with
    | ⟨0, _⟩ => exact (xsize3_21 i) ▸ hs
    | ⟨1, _⟩ => exact (xsize3_11 i).symm ▸ k.isLt
  rw [fill_indep win3_0 i d0 d0' b0 (ix2 r k) m0, fill_indep win3_1 i d1 d1' b1 (ix2 s k) m1]

/-! ## What a point writes back: its block of z · zᵀ -/

/-- Where the transfer moves a block's entry, the filled block reads the fetched part at that entry. -/
theorem fill_of_moved {G : Pipeline.Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Pipeline.Window.fill
  rw [dif_pos h]

/-- The row operand's block row at a point is the result's block row, its block column 0; -/
theorem idx3_00 (t : Fin cfg3.N) : win3_0.index t 0 = win3_2.index t 0 := rfl
theorem idx3_01 (t : Fin cfg3.N) : win3_0.index t 1 = 0 := rfl
/-- the column operand's block row is the result's block COLUMN, its block column 0. -/
theorem idx3_10 (t : Fin cfg3.N) : win3_1.index t 0 = win3_2.index t 1 := rfl
theorem idx3_11 (t : Fin cfg3.N) : win3_1.index t 1 = 0 := rfl

variable (V : (c : Dev nD) → (b : Ref sig .tc) → Buf (Elt Ideal) ((c : Thread nD τ).loc b))

/-- What point t writes back is block t of z · zᵀ, z the operand array as the region finds it: entry (r, s) of the
    block is entry (p · 1024 + r, q · 1024 + s) of the array, and rows r and s of the two staged operand blocks are rows
    p · 1024 + r and q · 1024 + s of z. -/
theorem flushed3_eq (c : Dev nD) (t : Fin cfg3.N) :
    (dat3 (F := Ideal) V c).flushed 2 t = ((cfg3.win 2).blk t).view.read (Elt Ideal) (Cert.Spec.dec (V c main_v3)) := by
  show win3_2.cut (grid3.coords t) ((dat3 (F := Ideal) V c).after 2 t) = _
  rw [after3_2]
  unfold out3_2 in3_0 in3_1
  funext j
  obtain ⟨r, s, hrs⟩ : ∃ (r s : Fin 1024), win3_2.xinj (grid3.coords t) j = ix2 r s := ⟨_, _, eq_ix2 _⟩
  have hr0 : (j 0).val = r.val := congrArg (fun x => (x 0).val) hrs
  have hs0 : (j 1).val = s.val := congrArg (fun x => (x 1).val) hrs
  have hr : r.val < win3_2.xsize (grid3.coords t) 0 := hr0 ▸ (j 0).isLt
  have hs : s.val < win3_2.xsize (grid3.coords t) 1 := hs0 ▸ (j 1).isLt
  show k3_pay1 (F := Ideal) (win3_0.fill (grid3.coords t) _ (iblk3 V c 0 t)) (win3_1.fill (grid3.coords t) _ (iblk3 V c 1 t))
      (win3_2.xinj (grid3.coords t) j) = Cert.Spec.dec (V c main_v3) (((cfg3.win 2).blk t).view.emb j)
  rw [hrs, k3_pay1_apply]
  refine Finset.sum_congr rfl fun k _ => ?_
  have m0 : win3_0.moved (grid3.coords t) (ix2 r k) = true := (win3_0.moved_iff _ _).mpr fun a => by
    match a with
    | ⟨0, _⟩ => exact (xsize3_20 _) ▸ hr
    | ⟨1, _⟩ => exact (xsize3_01 _).symm ▸ k.isLt
  have m1 : win3_1.moved (grid3.coords t) (ix2 s k) = true := (win3_1.moved_iff _ _).mpr fun a => by
    match a with
    | ⟨0, _⟩ => exact (xsize3_21 _) ▸ hs
    | ⟨1, _⟩ => exact (xsize3_11 _).symm ▸ k.isLt
  rw [fill_of_moved win3_0 _ _ _ (ix2 r k) m0, fill_of_moved win3_1 _ _ _ (ix2 s k) m1]
  refine congrArg₂ (fun (u v : EReal) => u * v) (congrArg (V c main_v3) ?_) (congrArg (V c main_v3) ?_)
  · funext a; apply Fin.ext
    match a with
    | ⟨0, _⟩ =>
      show win3_0.index t 0 * 1024 + 1 * r.val = win3_2.index t 0 * 1024 + 1 * (j 0).val
      rw [idx3_00, hr0]
    | ⟨1, _⟩ =>
      show win3_0.index t 1 * 16 + 1 * k.val = k.val
      rw [idx3_01]; omega
  · funext a; apply Fin.ext
    match a with
    | ⟨0, _⟩ =>
      show win3_1.index t 0 * 1024 + 1 * s.val = win3_2.index t 1 * 1024 + 1 * (j 1).val
      rw [idx3_10, hs0]
    | ⟨1, _⟩ =>
      show win3_1.index t 1 * 16 + 1 * k.val = k.val
      rw [idx3_11]; omega

/-! ## The blocks cover the result array -/

/-- An entry of the result array is in point t's block iff on each axis its coordinate is among the block's
    coordinates inside the array. -/
theorem mem_blk3 (t : Fin cfg3.N) (i : S10000x10000.Idx) :
    i ∈ ((cfg3.win 2).blk t).view.set ↔ ∀ a : Fin 2, win3_2.index t a * S1024x1024.size a ≤ (i a).val
      ∧ (i a).val < win3_2.index t a * S1024x1024.size a + win3_2.xsize (grid3.coords t) a := by
  show i ∈ ((View.whole main_v4).slice (win3_2.rect t)).set ↔ _
  rw [View.set_slice_whole, Rect.mem_set_unit]
  exact Iff.rfl

/-- Every pair of block indices below 10 is some point's. -/
theorem onto3 : ∀ (q0 q1 : Fin 10), ∃ t : Fin cfg3.N, win3_2.index t 0 = q0.val ∧ win3_2.index t 1 = q1.val :=
  (by decide +kernel : ∀ (q0 q1 : Fin 10), ∃ t : Fin grid3.N, win3_2.index t 0 = q0.val ∧ win3_2.index t 1 = q1.val)

/-- A coordinate R below 10000 lies in block R / 1024, in the part of it inside the array. -/
theorem in_block3 (R : Nat) (hR : R < 10000) :
    R / 1024 * 1024 ≤ R ∧ R < R / 1024 * 1024 + (Pipeline.Clip.of (R / 1024) 1024 10000).extent 1024 := by
  unfold Pipeline.Clip.of
  split
  · show _ ∧ R < R / 1024 * 1024 + 1024
    omega
  · show _ ∧ R < R / 1024 * 1024 + (10000 - R / 1024 * 1024)
    omega

/-- Entry (R, S) of the result array is in the block of the point (R / 1024, S / 1024), which writes it back. -/
theorem cover3_2 (i : S10000x10000.Idx) :
    ∃ t : Fin cfg3.N, (cfg3.win 2).flush t = true ∧ i ∈ ((cfg3.win 2).blk t).view.set := by
  have h0 : (i 0).val < 10000 := (i 0).isLt
  have h1 : (i 1).val < 10000 := (i 1).isLt
  obtain ⟨t, e0, e1⟩ := onto3 ⟨(i 0).val / 1024, by omega⟩ ⟨(i 1).val / 1024, by omega⟩
  refine ⟨t, flush3_2 t, (mem_blk3 t i).mpr fun a => ?_⟩
  match a with
  | ⟨0, _⟩ =>
    show win3_2.index t 0 * 1024 ≤ (i 0).val
      ∧ (i 0).val < win3_2.index t 0 * 1024 + (Pipeline.Clip.of (win3_2.index t 0) 1024 10000).extent 1024
    rw [e0]; exact in_block3 _ h0
  | ⟨1, _⟩ =>
    show win3_2.index t 1 * 1024 ≤ (i 1).val
      ∧ (i 1).val < win3_2.index t 1 * 1024 + (Pipeline.Clip.of (win3_2.index t 1) 1024 10000).extent 1024
    rw [e1]; exact in_block3 _ h1

/-- The result array after the region: z · zᵀ of the operand array as the region finds it. -/
theorem final3 (c : Dev nD) : (dat3 (F := Ideal) V c).arrAt 2 cfg3.N = Cert.Spec.dec (V c main_v3) :=
  (dat3 (F := Ideal) V c).arrAt_eq_of_cover 2 (Cert.Spec.dec (V c main_v3)) (fun t _ => flushed3_eq V c t) cover3_2

end Cert.KernelIdeal.Hand

end
-- ==== Proof.KI.R3Body.lean ====
import proofs.«109806_g28449863369143_cont_9to1_491_7_alg».proof.Proof.KI.R3Data
import Idealize.ShloMosaic.Lib.Pipeline.Dat
import Idealize.ShloMosaic.Lib.Pipeline.Frame
import Idealize.ShloMosaic.Lib.Pipeline.FrameBody
import Idealize.ShloMosaic.Lib.Pipeline.Value
import Idealize.ShloMosaic.Lib.Tactic

/-
  Region 3, the decode: what each window's current staging buffer holds when the body runs at a point, and the body
  obligation in its exact form at the extended reals.

  The row operand (window 0) is fetched only where the block row changes (the points that are multiples of 10); at
  the other points its buffer is as the body left it one point earlier, whose part inside the array is the block
  there, and that block is this point's: the block index has not moved, and the cut at the array's end is a function
  of the block index. So at every point the buffer holds the block on the rows inside the array and something
  unnamed past them. The column operand (window 1) is fetched at every point. The result (window 2) is written back
  at every point, so its buffer arrives holding anything.

  The body stores the product of the two buffers. On the part of the result block inside the array, the product does
  not depend on what the operand buffers hold past the array's end (the hypothesis `CutIndep`), so that part is
  the product of the two blocks filled out with zeros: what the proof data state.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the buffers hold when the body runs -/

/-- The row operand's cut at the array's end is a function of its block index. -/
theorem clip_congr3_0 (t t' : Fin cfg3.N) (h : (cfg3.win 0).index t = (cfg3.win 0).index t') :
    (cfg3.win 0).clip (cfg3.grid.coords t) = (cfg3.win 0).clip (cfg3.grid.coords t') := by
  funext a
  show Pipeline.Clip.of (win3_0.index t a) (S1024x16.size a) (S10000x16.size a)
    = Pipeline.Clip.of (win3_0.index t' a) (S1024x16.size a) (S10000x16.size a)
  rw [show win3_0.index t = win3_0.index t' from h]

/-- What the body leaves in the row operand's buffer, on the rows inside the array, is the block there. -/
theorem keep3_0 (c : Dev nD) (t : Fin cfg3.N) :
    (cfg3.win 0).cut (cfg3.grid.coords t) ((dat3 V c).after 0 t) = (dat3 V c).blockOf 0 t := by
  rw [after3_0]
  exact win3_0.cut_fill (grid3.coords t) _ (iblk3 V c 0 t)

/-- The row operand's buffer holds its block at the point on the rows inside the array, fetched there or not. -/
theorem before3_0 (c : Dev nD) (t : Fin cfg3.N) (d) :
    (dat3 V c).before 0 t d = win3_0.fill (grid3.coords t) d (iblk3 V c 0 t) := by
  rw [(dat3 V c).before_in_eq_fetched 0 rfl (fun _ => rfl) clip_congr3_0 (keep3_0 V c) t d]
  rfl

/-- The column operand's buffer is fetched at every point. -/
theorem before3_1 (c : Dev nD) (t : Fin cfg3.N) (d) :
    (dat3 V c).before 1 t d = win3_1.fill (grid3.coords t) d (iblk3 V c 1 t) := by
  rw [(dat3 V c).before_fetched 1 t (fetch3_1 t) d]
  rfl

/-- The result's buffer arrives holding anything: the point before wrote it back. -/
theorem before3_2 (c : Dev nD) (t : Fin cfg3.N) (d) : (dat3 V c).before 2 t d = d := by
  refine (dat3 V c).before_out_reset 2 rfl t ?_ d
  by_cases h : t.val = 0
  · exact .inl h
  · exact .inr ⟨h, flush3_2 _⟩

/-! ## The stored block -/

/-- The one store, through the whole buffer, of the product of the two whole loads leaves the product of the two
    buffers' contents. -/
theorem out3c_eq (x0 x1 : Vec F S1024x16 .f32) : out3c x0 x1 = k3_pay1 x0 x1 := by
  have hz : (![0, 0] : Fin 2 → Nat) = fun _ => 0 := funext fun a => by fin_cases a <;> rfl
  unfold out3c
  rw [View.canon_unit_zero hz]
  simp only [View.ld_unit_zero (S := S1024x16) hz]

/-! ## The body obligation, exact -/

set_option maxHeartbeats 1000000 in
/-- At every point: the operands' buffers arrive holding their blocks filled out with anything, the result's holding
    anything; the body leaves the operands' as they were and the result's at the product, which on the part inside
    the array is the product the proof data state. -/
theorem sound_exact3 (V : (c : Dev nD) → (b : Ref sig .tc) → Buf (Elt Ideal) ((c : Thread nD τ).loc b)) (c : Dev nD)
    (hcut : CutIndep) (t : Fin cfg3.N) :
    iprop((dat3 (F := Ideal) V c).Φ t.castSucc ∗ (dat3 (F := Ideal) V c).owesAt () t.castSucc
        ∗ (∃ d, owns (c : Thread nD τ) (st3_0 t) fullShare ((dat3 (F := Ideal) V c).before 0 t d))
        ∗ (∃ d, owns (c : Thread nD τ) (st3_1 t) fullShare ((dat3 (F := Ideal) V c).before 1 t d))
        ∗ (∃ d, owns (c : Thread nD τ) (st3_2 t) fullShare ((dat3 (F := Ideal) V c).before 2 t d)))
      ⊢ wp frame (wpE (defs₀ (F := Ideal)) Variants.none c none) Set.univ (bodyAt3 (F := Ideal) t) (fun _ =>
          iprop((dat3 (F := Ideal) V c).Φ t.succ ∗ (dat3 (F := Ideal) V c).owesAt () t.succ
            ∗ (∃ d, owns (c : Thread nD τ) (st3_0 t) fullShare
                ((cfg3.win 0).fill (cfg3.grid.coords t) d ((cfg3.win 0).cut (cfg3.grid.coords t) ((dat3 (F := Ideal) V c).after 0 t))))
            ∗ (∃ d, owns (c : Thread nD τ) (st3_1 t) fullShare
                ((cfg3.win 1).fill (cfg3.grid.coords t) d ((cfg3.win 1).cut (cfg3.grid.coords t) ((dat3 (F := Ideal) V c).after 1 t))))
            ∗ (∃ d, owns (c : Thread nD τ) (st3_2 t) fullShare
                ((cfg3.win 2).fill (cfg3.grid.coords t) d ((cfg3.win 2).cut (cfg3.grid.coords t) ((dat3 (F := Ideal) V c).after 2 t)))))) := by
  unfold bodyAt3
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩⟩
  rw [before3_0 V c t d0, before3_1 V c t d1, before3_2 V c t d2]
  iapply (sound_kernel3 c Set.univ _ _ _ _ _ _ _ (win3_0.fill (grid3.coords t) d0 (iblk3 V c 0 t))
    (win3_1.fill (grid3.coords t) d1 (iblk3 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : (cfg3.win 0).cut (cfg3.grid.coords t) ((dat3 V c).after 0 t) = iblk3 V c 0 t :=
    win3_0.cut_fill (grid3.coords t) _ (iblk3 V c 0 t)
  have h1 : (cfg3.win 1).cut (cfg3.grid.coords t) ((dat3 V c).after 1 t) = iblk3 V c 1 t :=
    win3_1.cut_fill (grid3.coords t) _ (iblk3 V c 1 t)
  have h2 : win3_2.cut (grid3.coords t)
        (out3c (win3_0.fill (grid3.coords t) d0 (iblk3 V c 0 t)) (win3_1.fill (grid3.coords t) d1 (iblk3 V c 1 t)))
      = (cfg3.win 2).cut (cfg3.grid.coords t) ((dat3 V c).after 2 t) := by
    rw [out3c_eq, after3_2]
    exact hcut (grid3.coords t) d0 _ d1 _ (iblk3 V c 0 t) (iblk3 V c 1 t)
  isplitl [H0]
  · iexists d0
    rw [h0]; iexact H0
  isplitl [H1]
  · iexists d1
    rw [h1]; iexact H1
  · iexists out3c (win3_0.fill (grid3.coords t) d0 (iblk3 V c 0 t)) (win3_1.fill (grid3.coords t) d1 (iblk3 V c 1 t))
    rw [← h2, win3_2.fill_cut]; iexact H2

/-- The body obligation with every window stated on its part inside the array. -/
theorem body_exact3 (V : (c : Dev nD) → (b : Ref sig .tc) → Buf (Elt Ideal) ((c : Thread nD τ).loc b)) (c : Dev nD)
    (hcut : CutIndep) : BodyObligationLoose (dat3 (F := Ideal) V c) (defs₀ (F := Ideal)) Variants.none () Set.univ := fun t => by
  rw [bigSep_W3]; try rw [bigSep_W3]
  simp only []
  exact sound_exact3 V c hcut t

end Cert.KernelIdeal.Hand

end
-- ==== Proof.Bridge.lean ====
/-
  The two-headed second layer, written two ways, is one function.

  With w2 = [wmu | wsig] — 32 rows; columns 0..15 are wmu's, columns 16..31 are wsig's — the projection h · w2 read at
  column j < 16 is the sum over k < 32 of h[i,k] · wmu[k,j], which is (h · wmu)[i,j], and read at column j + 16 it is
  (h · wsig)[i,j]. The adjacency pass adj · (h · w2) therefore has (adj · (h · wmu))[i,j] at column j and
  (adj · (h · wsig))[i,j] at column j + 16: on both sides the sums run over the same index sets and their terms are equal
  one by one, so nothing is re-associated and nothing is distributed. The reparameterised sample reads exactly these two
  columns, which gives the equality entry by entry.
-/
import proofs.«109806_g28449863369143_cont_9to1_491_7_alg».proof.Proof.Spec
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx

/-- The side-by-side weight read at row k and a column j < 16 is wmu[k,j]: the column falls in the first piece. -/
theorem concat_col_left (wmu wsig : FVec Ideal A32x16 .f32) (hc : Shape.Concatenates [A32x16, A32x16] A32x32 1)
    (k : Fin 32) (j : Fin 16) (hj : j.val < 32) :
    concatenate A32x32 1 [⟨A32x16, wmu⟩, ⟨A32x16, wsig⟩] hc (ix2 k ⟨j.val, hj⟩) = wmu (ix2 k j) := by
  refine concatenate_pair_apply_left (1 : Fin A32x32.rank) wmu wsig hc (ix2 k ⟨j.val, hj⟩) rfl (ix2 k j) ?_
  intro b
  match b with
  | ⟨0, _⟩ => rfl
  | ⟨1, _⟩ => rfl

/-- The side-by-side weight read at row k and column j + 16 is wsig[k,j]: the column falls in the second piece, at the
    first piece's sixteen columns less. -/
theorem concat_col_right (wmu wsig : FVec Ideal A32x16 .f32) (hc : Shape.Concatenates [A32x16, A32x16] A32x32 1)
    (k : Fin 32) (j : Fin 16) (hj : j.val + 16 < 32) :
    concatenate A32x32 1 [⟨A32x16, wmu⟩, ⟨A32x16, wsig⟩] hc (ix2 k ⟨j.val + 16, hj⟩) = wsig (ix2 k j) := by
  refine concatenate_pair_apply_right (1 : Fin A32x32.rank) wmu wsig hc (ix2 k ⟨j.val + 16, hj⟩) rfl rfl (ix2 k j) ?_ ?_
  · intro b hb
    match b, hb with
    | ⟨0, _⟩, _ => rfl
    | ⟨1, _⟩, hb => exact absurd rfl hb
  · rfl

/-- h · [wmu | wsig] at column j < 16 is (h · wmu) at column j: the same 32 terms. -/
theorem s2_col_left (h : FVec Ideal A10000x32 .f32) (wmu wsig : FVec Ideal A32x16 .f32)
    (hc : Shape.Concatenates [A32x16, A32x16] A32x32 1) (n : Fin 10000) (j : Fin 16) (hj : j.val < 32) :
    s2 h (concatenate A32x32 1 [⟨A32x16, wmu⟩, ⟨A32x16, wsig⟩] hc) (ix2 n ⟨j.val, hj⟩) = s3 h wmu (ix2 n j) :=
  Finset.sum_congr rfl fun k _ => congrArg (fun w => h (ix2 n k) * w) (concat_col_left wmu wsig hc k j hj)

/-- h · [wmu | wsig] at column j + 16 is (h · wsig) at column j: the same 32 terms. -/
theorem s2_col_right (h : FVec Ideal A10000x32 .f32) (wmu wsig : FVec Ideal A32x16 .f32)
    (hc : Shape.Concatenates [A32x16, A32x16] A32x32 1) (n : Fin 10000) (j : Fin 16) (hj : j.val + 16 < 32) :
    s2 h (concatenate A32x32 1 [⟨A32x16, wmu⟩, ⟨A32x16, wsig⟩] hc) (ix2 n ⟨j.val + 16, hj⟩) = s3 h wsig (ix2 n j) :=
  Finset.sum_congr rfl fun k _ => congrArg (fun w => h (ix2 n k) * w) (concat_col_right wmu wsig hc k j hj)

/-- adj · (h · [wmu | wsig]) at column j < 16 is adj · (h · wmu) at column j: the same 10000 terms. -/
theorem mz_col_left (adj : FVec Ideal A10000x10000 .f32) (h : FVec Ideal A10000x32 .f32)
    (wmu wsig : FVec Ideal A32x16 .f32) (hc : Shape.Concatenates [A32x16, A32x16] A32x32 1)
    (i : Fin 10000) (j : Fin 16) (hj : j.val < 32) :
    mz adj (s2 h (concatenate A32x32 1 [⟨A32x16, wmu⟩, ⟨A32x16, wsig⟩] hc)) (ix2 i ⟨j.val, hj⟩)
      = m16 adj (s3 h wmu) (ix2 i j) :=
  Finset.sum_congr rfl fun n _ => congrArg (fun w => adj (ix2 i n) * w) (s2_col_left h wmu wsig hc n j hj)

/-- adj · (h · [wmu | wsig]) at column j + 16 is adj · (h · wsig) at column j: the same 10000 terms. -/
theorem mz_col_right (adj : FVec Ideal A10000x10000 .f32) (h : FVec Ideal A10000x32 .f32)
    (wmu wsig : FVec Ideal A32x16 .f32) (hc : Shape.Concatenates [A32x16, A32x16] A32x32 1)
    (i : Fin 10000) (j : Fin 16) (hj : j.val + 16 < 32) :
    mz adj (s2 h (concatenate A32x32 1 [⟨A32x16, wmu⟩, ⟨A32x16, wsig⟩] hc)) (ix2 i ⟨j.val + 16, hj⟩)
      = m16 adj (s3 h wsig) (ix2 i j) :=
  Finset.sum_congr rfl fun n _ => congrArg (fun w => adj (ix2 i n) * w) (s2_col_right h wmu wsig hc n j hj)

/-- The sample computed from the side-by-side weight is the sample computed from the two heads kept apart. -/
theorem heads_eq (adj : FVec Ideal A10000x10000 .f32) (h : FVec Ideal A10000x32 .f32) (wmu wsig : FVec Ideal A32x16 .f32)
    (eps : FVec Ideal A10000x16 .f32) (hc : Shape.Concatenates [A32x16, A32x16] A32x32 1) :
    z (mz adj (s2 h (concatenate A32x32 1 [⟨A32x16, wmu⟩, ⟨A32x16, wsig⟩] hc))) eps
      = zr (m16 adj (s3 h wmu)) (m16 adj (s3 h wsig)) eps := by
  funext i
  obtain ⟨a, b, rfl⟩ : ∃ (a : Fin 10000) (b : Fin 16), i = ix2 a b := ⟨i 0, i 1, eq_ix2 i⟩
  have hlo : b.val < 32 := lt_of_lt_of_le b.isLt (by decide)
  have hhi : b.val + 16 < 32 := Nat.add_lt_add_right b.isLt 16
  exact congrArg₂ (fun u v => u + eps (ix2 a b) * Ideal.exp v)
    (mz_col_left adj h wmu wsig hc a b hlo) (mz_col_right adj h wmu wsig hc a b hhi)

end Cert.Spec

end
-- ==== Proof.KI.Chain.lean ====
/-
  What the kernel's program computes, read off the run's fold at the extended reals. With x, adj, eps, W1, Wmu, Wsig the
  launch contents of the six arguments on a core:
    after the host stretch the concatenation buffer holds [Wmu | Wsig];
    region 0 leaves s1 = x · W1; region 1 leaves s2 = max(adj · s1, 0) · [Wmu | Wsig];
    region 2 leaves z = mz[:, :16] + eps * exp(mz[:, 16:]) with mz = adj · s2; region 3 leaves z · zᵀ.
  Each region's result is its own value lemma at the contents the region was entered from; an array no item writes
  is what it was. The concatenated form is then the two-heads form (the columns of a product with [Wmu | Wsig] are
  the columns of the two products), which is the term the reference's run ends at.
-/
import proofs.«109806_g28449863369143_cont_9to1_491_7_alg».proof.Proof.KI.Run
import proofs.«109806_g28449863369143_cont_9to1_491_7_alg».proof.Proof.KI.R3Value
import proofs.«109806_g28449863369143_cont_9to1_491_7_alg».proof.Proof.KI.R3Body
import proofs.«109806_g28449863369143_cont_9to1_491_7_alg».proof.Proof.Bridge
import proofs.«109806_g28449863369143_cont_9to1_491_7_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! ## After the host stretch -/

/-- The concatenation buffer holds the two weight matrices side by side. -/
theorem V1_main_v0 (c : Dev nD) :
    V1 m c main_v0 = concatenate S32x32 1 [⟨S32x16, m ((c : Thread nD τ).loc main_arg4)⟩, ⟨S32x16, m ((c : Thread nD τ).loc main_arg5)⟩] concatenates_S32x16_S32x16_S32x32_d1 := by
  dsimp only [V1, W1, W0, hostOps0]
  after_results

/-- Every other buffer is as launched. -/
theorem V1_of (c : Dev nD) (b : Ref sig .tc) (hb : b ≠ main_v0) : V1 m c b = m ((c : Thread nD τ).loc b) := W1_of_ne m c b hb

/-! ## After region 0 -/

theorem V2_main_v1 (c : Dev nD) :
    V2 m c main_v1 = Cert.Spec.s1 (m ((c : Thread nD τ).loc main_arg0)) (m ((c : Thread nD τ).loc main_arg3)) := by
  have h := (W2_arr m c 2).trans (final0 (V1 m) c)
  rw [V1_of m c main_arg0 (by decide), V1_of m c main_arg3 (by decide)] at h
  exact h
theorem V2_main_v0 (c : Dev nD) : V2 m c main_v0 = V1 m c main_v0 := W2_of_ne m c main_v0 (by decide)
theorem V2_main_arg1 (c : Dev nD) : V2 m c main_arg1 = m ((c : Thread nD τ).loc main_arg1) :=
  (W2_of_ne m c main_arg1 (by decide)).trans (V1_of m c main_arg1 (by decide))
theorem V2_main_arg2 (c : Dev nD) : V2 m c main_arg2 = m ((c : Thread nD τ).loc main_arg2) :=
  (W2_of_ne m c main_arg2 (by decide)).trans (V1_of m c main_arg2 (by decide))

/-! ## After region 1 -/

theorem V3_main_v2 (c : Dev nD) :
    V3 m c main_v2 = Cert.Spec.s2 (Cert.Spec.hid (m ((c : Thread nD τ).loc main_arg1))
        (Cert.Spec.s1 (m ((c : Thread nD τ).loc main_arg0)) (m ((c : Thread nD τ).loc main_arg3))))
      (concatenate S32x32 1 [⟨S32x16, m ((c : Thread nD τ).loc main_arg4)⟩, ⟨S32x16, m ((c : Thread nD τ).loc main_arg5)⟩] concatenates_S32x16_S32x16_S32x32_d1) := by
  have h := (W3_arr m c 3).trans (final1 (V2 m) c)
  rw [V2_main_arg1, V2_main_v1, V2_main_v0, V1_main_v0] at h
  exact h
theorem V3_main_arg1 (c : Dev nD) : V3 m c main_arg1 = m ((c : Thread nD τ).loc main_arg1) :=
  (W3_arr m c 0).trans (((dat1 (V2 m) c).arrAt_in 0 rfl _).trans ((A_eq1 (V2 m) c 0).trans (V2_main_arg1 m c)))
theorem V3_main_arg2 (c : Dev nD) : V3 m c main_arg2 = m ((c : Thread nD τ).loc main_arg2) :=
  (W3_of_ne m c main_arg2 (by decide)).trans (V2_main_arg2 m c)

/-! ## After region 2 -/

theorem V4_main_v3 (c : Dev nD) :
    V4 m c main_v3 = Cert.Spec.z (Cert.Spec.mz (m ((c : Thread nD τ).loc main_arg1))
        (Cert.Spec.s2 (Cert.Spec.hid (m ((c : Thread nD τ).loc main_arg1))
            (Cert.Spec.s1 (m ((c : Thread nD τ).loc main_arg0)) (m ((c : Thread nD τ).loc main_arg3))))
          (concatenate S32x32 1 [⟨S32x16, m ((c : Thread nD τ).loc main_arg4)⟩, ⟨S32x16, m ((c : Thread nD τ).loc main_arg5)⟩] concatenates_S32x16_S32x16_S32x32_d1)))
      (m ((c : Thread nD τ).loc main_arg2)) := by
  have h := (W4_arr m c 3).trans (final2 (V3 m) c)
  rw [V3_main_arg1, V3_main_v2, V3_main_arg2] at h
  exact h

/-! ## After region 3: the result -/

/-- The specification's term of the launch contents on core `c`, in the form that keeps the two heads apart. -/
abbrev resultTerm (c : Dev nD) : FVec Ideal Cert.Spec.A10000x10000 .f32 :=
  Cert.Spec.dec (Cert.Spec.zr
    (Cert.Spec.m16 (m ((c : Thread nD τ).loc main_arg1)) (Cert.Spec.s3 (Cert.Spec.hid (m ((c : Thread nD τ).loc main_arg1)) (Cert.Spec.s1 (m ((c : Thread nD τ).loc main_arg0)) (m ((c : Thread nD τ).loc main_arg3)))) (m ((c : Thread nD τ).loc main_arg4))))
    (Cert.Spec.m16 (m ((c : Thread nD τ).loc main_arg1)) (Cert.Spec.s3 (Cert.Spec.hid (m ((c : Thread nD τ).loc main_arg1)) (Cert.Spec.s1 (m ((c : Thread nD τ).loc main_arg0)) (m ((c : Thread nD τ).loc main_arg3)))) (m ((c : Thread nD τ).loc main_arg5))))
    (m ((c : Thread nD τ).loc main_arg2)))

/-- What region 3's write-backs leave in the result array. -/
theorem result_value (c : Dev nD) : (dat3 (F := Ideal) (V4 m) c).arrAt 2 cfg3.N = resultTerm m c := by
  rw [final3 (V4 m) c, V4_main_v3]
  exact congrArg Cert.Spec.dec (Cert.Spec.heads_eq _ _ _ _ _ _)

/-- The kernel's program at the extended reals: every weakly fair execution terminates, the result array holds the
    specification's term of the launch contents, and the arguments are unchanged. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = resultTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono
    (fun r h c => ⟨(((dat3 (F := Ideal) (V4 m) c).toRForget_arrAt_iff (fgt := fun _ => false) (w := 2) rfl cfg3.N _).mp (h c).1).trans (result_value m c), (h c).2⟩)
    (run_main (F := Ideal) m (fun _ => false) ρ (fun c => body_exact3 (V4 m) c cutIndep))

end Cert.KernelIdeal.Hand

end
-- ==== Proof.K.R0.lean ====
/-
  Region 0 of the idealized kernel program: the first layer's projection, one whole-array block per window
  (no grid, a single point). This module gives the region's proof data at the buffer contents found on entry,
  proves the body's triple and the pipeline's body obligation for any float instance, and then, over the
  extended reals, shows that the result array after the region holds x · W1: entry (i, j) is the sum over
  k < 128 of x[i,k] · W1[k,j].
-/
import proofs.«109806_g28449863369143_cont_9to1_491_7_alg».proof.Proof.Gen.Kernel.Launch
import proofs.«109806_g28449863369143_cont_9to1_491_7_alg».proof.Proof.Gen.Kernel.Skeleton
import proofs.«109806_g28449863369143_cont_9to1_491_7_alg».proof.Proof.Gen.Kernel.Points
import proofs.«109806_g28449863369143_cont_9to1_491_7_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Tactic

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block (all of x) at the point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block (all of W1) at the point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0

/-! ## What the body leaves in the output window's buffer -/

/-- Window 2's staging buffer after the body, from the input windows' blocks: its one store, of the product of
    the two loaded blocks, over the whole buffer. -/
def out0_2 (x0 : Vec F S10000x128 .f32) (x1 : Vec F S128x32 .f32) : Vec F S10000x32 .f32 :=
  View.canon [⟨r0_2, k0_pay1 (View.ld x0 r0_0) (View.ld x1 r0_1)⟩]

/-- The one store is of the whole buffer, so it covers it. -/
theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

/-! ## The body's triple -/

set_option maxHeartbeats 1000000 in
/-- The kernel body on whole staging memrefs, the inputs' at read contents `x0`, `x1` and the output's at anything,
    runs to the continuation holding the inputs' as they were and the output's at `out0_2 x0 x1`. -/
theorem sound_kernel0 (c : Dev nD) (E : Set ℕ) (arg0 : Memref sig .tc .vmem S10000x128 .f32) (harg0 : arg0.IsWhole) (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__s1_kernel arg0 harg0 arg1 harg1 arg2 harg2) K := by
  simp only [cc0__s1_kernel_eq_skeleton]; unfold cc0__s1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body each
    input's buffer at its block and the output's at `out0_2` of the input blocks; the invariant that leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at the point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1 of the idealized kernel: one adjacency pass, the rectifier and the second layer's projection,
  on a grid of 25 blocks of 400 rows.

  At a point t the body reads the 400-row block t of the adjacency, the whole first-layer projection and the
  whole [32,32] weight, and stores   max(adj_blk · s, 0) · w   over the whole 400-row staging block of the result.
  This module states the region's proof data at a parameter V (the buffers' contents when the region is entered),
  proves the body's obligation for any float instance, and, over the extended reals, reads the result array after
  the region:   s2 (hid adj s) w   of the specification, row by row.
-/
import proofs.«109806_g28449863369143_cont_9to1_491_7_alg».proof.Proof.Gen.Kernel.Launch
import proofs.«109806_g28449863369143_cont_9to1_491_7_alg».proof.Proof.Gen.Kernel.Skeleton
import proofs.«109806_g28449863369143_cont_9to1_491_7_alg».proof.Proof.Gen.Kernel.Points
import proofs.«109806_g28449863369143_cont_9to1_491_7_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's staging buffer holds block t at every point, for any proof data whose array is V's
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The first-layer projection is fetched once; its block index never moves, so its buffer holds the whole
    array at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the weight. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S400x10000 := Rect.unit (s := S400x10000) ![0, 0] S400x10000.size inb_S400x10000_S400x10000_0_0
abbrev r1_1 : Rect S10000x32 := Rect.unit (s := S10000x32) ![0, 0] S10000x32.size inb_S10000x32_S10000x32_0_0
abbrev r1_2 : Rect S32x32 := Rect.unit (s := S32x32) ![0, 0] S32x32.size inb_S32x32_S32x32_0_0
abbrev r1_3 : Rect S400x32 := Rect.unit (s := S400x32) ![0, 0] S400x32.size inb_S400x32_S400x32_0_0

/-! ## What the body leaves in the output window's buffer -/

/-- The result window's staging buffer after the body, from the three input blocks: its one store, over the
    whole block, of the payload at what the three loads read. -/
def out1_3 (x0 : Vec F S400x10000 .f32) (x1 : Vec F S10000x32 .f32) (x2 : Vec F S32x32 .f32) : Vec F S400x32 .f32 :=
  View.canon [⟨r1_3, k1_pay1 (View.ld x0 r1_0) (View.ld x1 r1_1) (View.ld x2 r1_2)⟩]

/-- The one store covers the buffer. -/
theorem cover1_3 (p0 : Vec F S400x32 .f32) (y : S400x32.Idx) :
    ∃ pc ∈ ([⟨r1_3, p0⟩] : List (View.Piece (Elt F) S400x32 .f32)), y ∈ pc.1.set :=
  View.cover_of_tiled [⟨r1_3, p0⟩] S400x32.size (by rfl) y

/-! ## The body's triple -/

set_option maxHeartbeats 1000000 in
/-- The body on whole staging memrefs, the inputs' at contents x0, x1, x2 and the output's at anything, runs to the
    continuation holding the inputs' as they were and the output's at out1_3 of them. -/
theorem sound_kernel1 (c : Dev nD) (E : Set ℕ) (i : grid1.Coords)
    (arg1 : Memref sig .tc .vmem S400x10000 .f32) (harg1 : arg1.IsWhole) (arg2 : Memref sig .tc .vmem S10000x32 .f32) (harg2 : arg2.IsWhole)
    (arg3 : Memref sig .tc .vmem S32x32 .f32) (harg3 : arg3.IsWhole) (arg4 : Memref sig .tc .vmem S400x32 .f32) (harg4 : arg4.IsWhole)
    (x0 : Vec F S400x10000 .f32) (x1 : Vec F S10000x32 .f32) (x2 : Vec F S32x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass_a_kernel i arg1 harg1 arg2 harg2 arg3 harg3 arg4 harg4) K := by
  simp only [cc1__pass_a_kernel_eq_skeleton]; unfold cc1__pass_a_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The region's proof data on core c: the arrays as the region finds them; after the body at point t each input's
    buffer at its block and the output's at out1_3 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.R2.lean ====
/-
  Region 2 of the idealized kernel: the second adjacency pass and the reparameterised sample.

  The region reads a 400-row block of the adjacency matrix, the whole [10000,32] second-layer projection and a
  400-row block of the noise; it writes the 400-row block
      (adj_blk · s2)[:, :16] + eps_blk * exp((adj_blk · s2)[:, 16:])
  of the sample. This module gives the region's proof data at a parameter V (the buffers' contents when the region
  is entered), the triple of its body at every grid point, and, over the extended reals, the whole output array the
  region leaves: the sample z of Spec.lean over the product mz of the entered adjacency matrix and projection.
-/
import proofs.«109806_g28449863369143_cont_9to1_491_7_alg».proof.Proof.Gen.Kernel.Launch
import proofs.«109806_g28449863369143_cont_9to1_491_7_alg».proof.Proof.Gen.Kernel.Skeleton
import proofs.«109806_g28449863369143_cont_9to1_491_7_alg».proof.Proof.Gen.Kernel.Points
import proofs.«109806_g28449863369143_cont_9to1_491_7_alg».proof.Proof.Spec
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the adjacency block) holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole projection) is fetched at the first point only; its block index never moves, so its
    buffer holds the block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the noise block) holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S400x10000 := Rect.unit (s := S400x10000) ![0, 0] S400x10000.size inb_S400x10000_S400x10000_0_0
abbrev r2_1 : Rect S10000x32 := Rect.unit (s := S10000x32) ![0, 0] S10000x32.size inb_S10000x32_S10000x32_0_0
abbrev r2_2 : Rect S400x16 := Rect.unit (s := S400x16) ![0, 0] S400x16.size inb_S400x16_S400x16_0_0

/-! ## What the body leaves in the output window's buffer -/

/-- Window 3's staging buffer after the body, from the input windows' blocks: its one whole-block store. -/
def out2_3 (x0 : Vec F S400x10000 .f32) (x1 : Vec F S10000x32 .f32) (x2 : Vec F S400x16 .f32) : Vec F S400x16 .f32 :=
  View.canon [⟨r2_2, k2_pay1 (View.ld x0 r2_0) (View.ld x1 r2_1) (View.ld x2 r2_2)⟩]

/-- The one store covers the buffer. -/
theorem cover2_3 (p0 : Vec F S400x16 .f32) (y : S400x16.Idx) :
    ∃ pc ∈ ([⟨r2_2, p0⟩] : List (View.Piece (Elt F) S400x16 .f32)), y ∈ pc.1.set :=
  View.cover_of_tiled [⟨r2_2, p0⟩] S400x16.size (by rfl) y

/-! ## The body's triple -/

set_option maxHeartbeats 1000000 in
/-- The body on whole staging memrefs, the inputs' at read contents and the output's at anything, runs to the
    continuation holding the inputs' as they were and the output's at `out2_3` of the inputs'. -/
theorem sound_kernel2 (c : Dev nD) (E : Set ℕ) (i : grid2.Coords) (arg1 : Memref sig .tc .vmem S400x10000 .f32) (harg1 : arg1.IsWhole) (arg2 : Memref sig .tc .vmem S10000x32 .f32) (harg2 : arg2.IsWhole) (arg3 : Memref sig .tc .vmem S400x16 .f32) (harg3 : arg3.IsWhole) (arg4 : Memref sig .tc .vmem S400x16 .f32) (harg4 : arg4.IsWhole)
    (x0 : Vec F S400x10000 .f32) (x1 : Vec F S10000x32 .f32) (x2 : Vec F S400x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__pass_b_kernel i arg1 harg1 arg2 harg2 arg3 harg3 arg4 harg4) K := by
  simp only [cc2__pass_b_kernel_eq_skeleton]; unfold cc2__pass_b_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region on core `c`: the arrays as the region finds them; after the body at point `t` each
    input's buffer at its block and the output's at `out2_3` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.R3Data.lean ====
/-
  Region 3, the decode: out = z · zᵀ over a 10 × 10 grid of 1024 × 1024 blocks of a 10000 × 10000 result, the two
  operands both the array z [10000, 16] read in 1024-row blocks — window 0 at the block row of the point, window 1
  at its block column. 10 · 1024 > 10000: the last block of each window overhangs the array by 240 rows, its
  transfer is cut at the array's end, and what the staging rows past the end hold is not named by anything.
  Here: each window's block as the fetch reads it (its part inside the array), the staging contents after the body
  on the part the transfers move (filled out with zeros past it, which nothing reads), the body's triple — two whole
  loads, the product of the loaded blocks, a whole store —, the proof data, and the body obligation in the form that
  says nothing of what any buffer holds (enough wherever no claim reads the result).
-/
import proofs.«109806_g28449863369143_cont_9to1_491_7_alg».proof.Proof.Gen.Kernel.Launch
import proofs.«109806_g28449863369143_cont_9to1_491_7_alg».proof.Proof.Gen.Kernel.Skeleton
import proofs.«109806_g28449863369143_cont_9to1_491_7_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic
import Idealize.ShloMosaic.PureOps.Ideal

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t` as the fetch reads it off the array the region finds (`V`): its part inside the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row operand's staging contents at point `t` on the rows inside the array, zeros past them. -/
def in3_0 (c : Dev nD) (t : Fin cfg3.N) : S1024x16.Idx → Elt F .f32 :=
  win3_0.fill (grid3.coords t) (fun _ => Scalar.ofBits .f32 0#32) (iblk3 V c 0 t)
/-- The column operand's likewise. -/
def in3_1 (c : Dev nD) (t : Fin cfg3.N) : S1024x16.Idx → Elt F .f32 :=
  win3_1.fill (grid3.coords t) (fun _ => Scalar.ofBits .f32 0#32) (iblk3 V c 1 t)
/-- The result's staging contents after the body at point `t`: the product of those two. Only its part inside the
    array is ever stated or moved. -/
def out3_2 (c : Dev nD) (t : Fin cfg3.N) : S1024x1024.Idx → Elt F .f32 :=
  k3_pay1 (in3_0 V c t) (in3_1 V c t)

/-! ## The body's triple -/

abbrev r3_in : Rect S1024x16 := Rect.unit (s := S1024x16) ![0, 0] S1024x16.size inb_S1024x16_S1024x16_0_0
abbrev r3_out : Rect S1024x1024 := Rect.unit (s := S1024x1024) ![0, 0] S1024x1024.size inb_S1024x1024_S1024x1024_0_0

/-- What the one store leaves in the result's buffer, as the canon of its one piece over the two loads. -/
def out3c (x0 x1 : Vec F S1024x16 .f32) : Vec F S1024x1024 .f32 :=
  View.canon [⟨r3_out, k3_pay1 (View.ld x0 r3_in) (View.ld x1 r3_in)⟩]

theorem cover3 (p0 : Vec F S1024x1024 .f32) (y : S1024x1024.Idx) :
    ∃ pc ∈ ([⟨r3_out, p0⟩] : List (View.Piece (Elt F) S1024x1024 .f32)), y ∈ pc.1.set :=
  View.cover_of_tiled [⟨r3_out, p0⟩] S1024x1024.size (by rfl) y

set_option maxHeartbeats 1000000 in
/-- The body on whole staging memrefs, the operands' at contents `x0`, `x1` and the result's at anything, runs to the
    continuation holding the operands' as they were and the result's at the stored product. -/
theorem sound_kernel3 (c : Dev nD) (E : Set ℕ) (i : grid3.Coords) (arg2 : Memref sig .tc .vmem S1024x16 .f32) (harg2 : arg2.IsWhole)
    (arg3 : Memref sig .tc .vmem S1024x16 .f32) (harg3 : arg3.IsWhole) (arg4 : Memref sig .tc .vmem S1024x1024 .f32) (harg4 : arg4.IsWhole)
    (x0 x1 : Vec F S1024x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3c x0 x1)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-! ## The proof data -/

/-- Region 3's proof data on core `c`: the arrays as the region finds them; after the body the operands' buffers at
    their blocks and the result's at the product (each stated on the part inside the array); the class's invariant;
    nothing owed. The two operand windows read ONE array: each holds half of it. -/
def dat3 (c : Dev nD) : Dat τ (Elt F) Unit ℕ (UR sig nD τ) ℕ cfg3 c where
  A w := V c (Pipeline.arrRef spec3 w)
  after w t := match w with
    | ⟨0, _⟩ => in3_0 V c t
    | ⟨1, _⟩ => in3_1 V c t
    | ⟨2, _⟩ => out3_2 V c t
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = in3_0 V c t := by dsimp only [dat3]
theorem after3_1 (c : Dev nD) (t : Fin cfg3.N) : (dat3 V c).after 1 t = in3_1 V c t := by dsimp only [dat3]
theorem after3_2 (c : Dev nD) (t : Fin cfg3.N) : (dat3 V c).after 2 t = out3_2 V c t := by dsimp only [dat3]

/-! ## The body obligation that names no contents -/

/-- Every window forgotten: each buffer is handed to the body at some contents and taken back at some contents. -/
abbrev allForgotten : Fin cfg3.W → Bool := fun _ => true

theorem sound_forget3 (c : Dev nD) (t : Fin cfg3.N) :
    iprop((dat3 V c).Φ t.castSucc ∗ (dat3 V c).owesAt () t.castSucc
        ∗ (∃ X, owns (c : Thread nD τ) (st3_0 t) fullShare X)
        ∗ (∃ X, owns (c : Thread nD τ) (st3_1 t) fullShare X)
        ∗ (∃ X, owns (c : Thread nD τ) (st3_2 t) fullShare X))
      ⊢ wp frame (wpE (defs₀ (F := F)) Variants.none c none) Set.univ (bodyAt3 t) (fun _ =>
          iprop((dat3 V c).Φ t.succ ∗ (dat3 V c).owesAt () t.succ
            ∗ (∃ X, owns (c : Thread nD τ) (st3_0 t) fullShare X)
            ∗ (∃ X, owns (c : Thread nD τ) (st3_1 t) fullShare X)
            ∗ (∃ X, owns (c : Thread nD τ) (st3_2 t) fullShare X))) := by
  unfold bodyAt3
  rw [show (dat3 V c).Φ t.succ = (dat3 V c).Φ t.castSucc from rfl,
    show (dat3 V c).owesAt () t.succ = (dat3 V c).owesAt () t.castSucc from rfl]
  iintro ⟨HΦ, Ho, ⟨%X0, H0⟩, ⟨%X1, H1⟩, ⟨%X2, H2⟩⟩
  iapply (sound_kernel3 c Set.univ _ _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

theorem body_forget3 (c : Dev nD) : BodyObligationLoose (dat3 (F := F) V c) (defs₀ (F := F)) Variants.none () Set.univ allForgotten := fun t => by
  rw [bigSep_W3]; try rw [bigSep_W3]
  simp only [allForgotten]
  exact sound_forget3 V c t

end Cert.Kernel.Hand

end
-- ==== Proof.K.Run.lean ====
/-
  The run of the whole program: @main is one host stretch (the two [32,16] weights laid side by side) and then the
  four kernel regions in order. Between two items the TensorCore holds every unscoped buffer whole, at contents
  computed by a fold from the launch memory: after the host stretch the concatenation is in place; after each of
  regions 0, 1, 2 the region's result array holds what its write-backs leave (named exactly) and everything else is as
  it was. Region 3's two operand windows read ONE array, so at its entry that array's full share is dealt to them in
  halves; and of what region 3 leaves in its result only a relation is kept — `fgt3` says which of its windows the
  body obligation names: none forgotten where the result's value is wanted, all forgotten where only the frame is.
  The post read at the end: every argument array as launched, and the result array at contents the proof data allows.
-/
import proofs.«109806_g28449863369143_cont_9to1_491_7_alg».proof.Proof.K.R0
import proofs.«109806_g28449863369143_cont_9to1_491_7_alg».proof.Proof.K.R1
import proofs.«109806_g28449863369143_cont_9to1_491_7_alg».proof.Proof.K.R2
import proofs.«109806_g28449863369143_cont_9to1_491_7_alg».proof.Proof.K.R3Data
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary: a fold through @main -/

/-- Core `c`'s buffers at launch. -/
abbrev W0 : Dev nD → Valuation τ sig (Elt F) := fun c b => m (c, b)
/-- After the host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ### The host stretch writes the concatenation's buffer only -/

theorem hostOps0_fresh : (hostOps0 : List (HloOp τ sig (Elt F))).Forall fun op => op.fresh = ∅ := by
  simp only [List.Forall]; repeat' constructor

theorem W1_of_ne (c : Dev nD) (b : Ref sig .tc) (hb : b ≠ main_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb))

/-! ### The arguments reach region 3's entry as launched -/

theorem V4_main_arg0 (c : Dev nD) : V4 m c main_arg0 = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_ne m c main_arg0 (by decide)
    _ = m ((c : Thread nD τ).loc main_arg0) := rfl
theorem V4_main_arg1 (c : Dev nD) : V4 m c main_arg1 = m ((c : Thread nD τ).loc main_arg1) :=
  calc W4 m c (Proc.devRef .tc main_arg1)
    _ = W3 m c (Proc.devRef .tc main_arg1) := (W4_arr m c 0).trans (((dat2 (V3 m) c).arrAt_in 0 rfl _).trans (A_eq2 (V3 m) c 0))
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl
theorem V4_main_arg2 (c : Dev nD) : V4 m c main_arg2 = m ((c : Thread nD τ).loc main_arg2) :=
  calc W4 m c (Proc.devRef .tc main_arg2)
    _ = W3 m c (Proc.devRef .tc main_arg2) := (W4_arr m c 2).trans (((dat2 (V3 m) c).arrAt_in 2 rfl _).trans (A_eq2 (V3 m) c 2))
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl
theorem V4_main_arg3 (c : Dev nD) : V4 m c main_arg3 = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := (W2_arr m c 1).trans (((dat0 (V1 m) c).arrAt_in 1 rfl _).trans (A_eq0 (V1 m) c 1))
    _ = W0 m c (Proc.devRef .tc main_arg3) := W1_of_ne m c main_arg3 (by decide)
    _ = m ((c : Thread nD τ).loc main_arg3) := rfl
theorem V4_main_arg4 (c : Dev nD) : V4 m c main_arg4 = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of_ne m c main_arg4 (by decide)
    _ = m ((c : Thread nD τ).loc main_arg4) := rfl
theorem V4_main_arg5 (c : Dev nD) : V4 m c main_arg5 = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of_ne m c main_arg5 (by decide)
    _ = m ((c : Thread nD τ).loc main_arg5) := rfl

/-! ## The proof data families and the thread state -/

/-- No pallas_call has a prefetched table. -/
abbrev adm : (p : Fin 4) → (pcfgs (F := F) p).Adm := fun p => (cfgs p).toPCfg_adm
/-- Every pipeline's exact proof data, each at its region's entry contents (a literal match). -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c

variable (fgt3 : Fin cfg3.W → Bool)

/-- The same read relationally, region 3's with the windows `fgt3` marks forgotten. -/
def rdats : (p : Fin 4) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V2 m) c).toR
  | ⟨2, _⟩ => fun c => (dat2 (V3 m) c).toR
  | ⟨3, _⟩ => fun c => (dat3 (V4 m) c).toRForget fgt3

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- The last thread state (the chain ends at it beside the core owing nothing): every unscoped buffer that is no array
    of region 3 at region 3's entry contents, region 3's arrays at contents its proof data allows after the last
    write-back, the generator register at some state. -/
abbrev Tₙ (c : Dev nD) : sProp 𝕄 :=
  iprop(Pipeline.unscopedRest (Ix := Unit) (Name := ℕ) (U := UR sig nD τ) (Lvl := ℕ) spec3 c (V4 m c)
    ∗ (rdats m fgt3 3 c).arraysAt cfg3.N ∗ ∃ r, prngReg c r)

/-! ## The regions as segments -/

-- a library lemma stated over `pin pcs a p` unifies with the pinned configuration only when unification may unfold plain
-- definitions in a metavariable's type
set_option backward.isDefEq.respectTransparency.types false in
/-- Region 0 over the thread state: entered from every unscoped buffer at `W1`, left at `W2`. Its arrays are split
    out of the unscoped buffers and put back at the exit contents; the generator register goes into the class's invariant
    and comes back; nothing is owed; the kernel has no semaphore of its own. -/
def reg0 : Pipeline.RDat.RegionSeg (pcfgs (F := F)) adm (rdats m fgt3) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m fgt3) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    have hpost : ((rdats m fgt3 0 c).arraysAt (Pipeline.pin (pcfgs (F := F)) adm 0).N : sProp 𝕄)
        ⊢ (pdats m 0 c).arrays ((pdats m 0 c).arrAt · cfg0.N) := (dat0 (V1 m) c).toR_arraysAt_post cfg0.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Region 1 over the thread state: entered from every unscoped buffer at `W2`, left at `W3`. Its arrays are split
    out of the unscoped buffers and put back at the exit contents; the generator register goes into the class's invariant
    and comes back; nothing is owed; the kernel has no semaphore of its own. -/
def reg1 : Pipeline.RDat.RegionSeg (pcfgs (F := F)) adm (rdats m fgt3) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose.toR
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m fgt3) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    have hpost : ((rdats m fgt3 1 c).arraysAt (Pipeline.pin (pcfgs (F := F)) adm 1).N : sProp 𝕄)
        ⊢ (pdats m 1 c).arrays ((pdats m 1 c).arrAt · cfg1.N) := (dat1 (V2 m) c).toR_arraysAt_post cfg1.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Region 2 over the thread state: entered from every unscoped buffer at `W3`, left at `W4`. Its arrays are split
    out of the unscoped buffers and put back at the exit contents; the generator register goes into the class's invariant
    and comes back; nothing is owed; the kernel has no semaphore of its own. -/
def reg2 : Pipeline.RDat.RegionSeg (pcfgs (F := F)) adm (rdats m fgt3) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose.toR
  hwaits := Pipeline.RDat.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.RDat.arrays_of_unscopedBufs (p := 2) (pcfgs (F := F)) adm (rdats m fgt3) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m fgt3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    have hpost : ((rdats m fgt3 2 c).arraysAt (Pipeline.pin (pcfgs (F := F)) adm 2).N : sProp 𝕄)
        ⊢ (pdats m 2 c).arrays ((pdats m 2 c).arrAt · cfg2.N) := (dat2 (V3 m) c).toR_arraysAt_post cfg2.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

/-- The buffers behind region 3's arrays are two: the operand array and the result array. -/
theorem arrs3 : Finset.univ.image (Pipeline.arrRef spec3) = {main_v3, main_v4} := by decide

/-- The buffers behind region 3's arrays, each whole at the full share at the entry contents, are the proof data's
    arrays at entry: the operand array's share splits into its two halves, one for each window that reads it; the result
    array goes to its window whole. -/
theorem arrays3_of_bufs (c : Dev nD) :
    (Pipeline.arrBufs (Ix := Unit) (Name := ℕ) (U := UR sig nD τ) (Lvl := ℕ) (Pipeline.pin (pcfgs (F := F)) adm 3).spec c (V4 m c) : sProp 𝕄)
      ⊢ (rdats m fgt3 3 c).arrays (rdats m fgt3 3 c).A := by
  unfold Pipeline.arrBufs Pipeline.RDat.arrays
  rw [show Finset.univ.image (Pipeline.arrRef (Pipeline.pin (pcfgs (F := F)) adm 3).spec) = {main_v3, main_v4} from arrs3,
    BI.bigSep_insert (by decide), BI.bigSep_singleton, bigSep_W3]
  have e0 : (cfg3.win 0).arr.view.set = Finset.univ := (arr_whole3 0).set_eq_univ
  have e2 : (cfg3.win 2).arr.view.set = Finset.univ := (arr_whole3 2).set_eq_univ
  show iprop((((c : Thread nD τ).loc main_v3) ↦{fullShare} V4 m c main_v3) ∗ (((c : Thread nD τ).loc main_v4) ↦{fullShare} V4 m c main_v4))
    ⊢ iprop(((cfg3.win 0).arr.view.loc (c : Thread nD τ) ↦[(cfg3.win 0).arr.view.set]{fullShare.left} V4 m c main_v3)
      ∗ ((cfg3.win 1).arr.view.loc (c : Thread nD τ) ↦[(cfg3.win 1).arr.view.set]{fullShare.right} V4 m c main_v3)
      ∗ ((cfg3.win 2).arr.view.loc (c : Thread nD τ) ↦[(cfg3.win 2).arr.view.set]{fullShare} V4 m c main_v4))
  rw [e0, e2]
  iintro ⟨H3, H4⟩
  ihave H3' := (pointsTo_share (PosShare.mem_left_op_right fullShare)).1 $$ H3
  icases H3' with ⟨H3l, H3r⟩
  isplitl [H3l]; · iexact H3l
  isplitl [H3r]; · iexact H3r
  iexact H4

set_option backward.isDefEq.respectTransparency.types false in
/-- Region 3 over the thread state: entered from every unscoped buffer at `W4`; the operand array's full share is dealt
    in halves to the two windows that read it, the result array goes to its window whole; left holding the rest as
    entered and its arrays at contents the proof data allows. -/
def reg3 (hbody3 : ∀ c, BodyObligationLoose (dat3 (F := F) (V4 m) c) (defs₀ (F := F)) Variants.none () Set.univ fgt3) :
    Pipeline.RDat.RegionSeg (pcfgs (F := F)) adm (rdats m fgt3) () defs₀ 𝒱₀ L lv 3 where
  win := winFacts₀3
  block_pos := block_pos3
  stage_whole := stage_whole3
  K := PEmpty
  osem k := k.elim
  ho := Pipeline.OwnSemFacts.none _
  hbody c := (hbody3 c).toRForget
  hwaits := Pipeline.RDat.hwaits_of_owed_zero _ _ _ _ L lv 3 fun _ _ => rfl
  pre c := iprop(StableHlo.held (c : Thread nD τ) (Pipeline.ucRefs τ sig) (W4 m c) ∗ R c)
  post c := iprop(Tₙ m fgt3 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.unscopedBufs_split₀ (Pipeline.pin (pcfgs (F := F)) adm) 3 winFacts₀3.arr_unscoped c
      (Ix := Unit) (Name := ℕ) (U := UR sig nD τ) (Lvl := ℕ) (V4 m c)
    rw [Pipeline.unscopedBufs_held] at hsplit
    rw [hsplit]
    iintro ⟨⟨⟨Ha, Hrest⟩, Hp, HO⟩, -, -⟩
    ihave Ha' := (arrays3_of_bufs m fgt3 c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m fgt3 3 c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha HY Hrest]
    · isplitl [Hrest]; · iexact Hrest
      isplitl [Ha]; · iexact Ha
      iexact HY
    unfold Pipeline.RDat.owesAt Pipeline.owesWithin
    icases HO with ⟨%W, -, HO⟩; iexists W; iexact HO

/-! ## @main as segments, and the launch -/

/-- @main's five segments in order. -/
abbrev segs (hbody3 : ∀ c, BodyObligationLoose (dat3 (F := F) (V4 m) c) (defs₀ (F := F)) Variants.none () Set.univ fgt3) :
    List (Pipeline.RDat.Seg (pcfgs (F := F)) adm (rdats m fgt3) () defs₀ 𝒱₀ L lv) :=
  [ .host (hseg0 m), .region (reg0 m fgt3), .region (reg1 m fgt3), .region (reg2 m fgt3), .region (reg3 m fgt3 hbody3) ]

/-- @main is the run of the segments. -/
theorem main_run (hbody3 : ∀ c, BodyObligationLoose (dat3 (F := F) (V4 m) c) (defs₀ (F := F)) Variants.none () Set.univ fgt3) (c : Dev nD) :
    main (F := F) c = Pipeline.RDat.Seg.run (segs m fgt3 hbody3) := (main_chain c).trans (by chain_rfl)

/-- The unscoped references that are no array of region 3. -/
abbrev rest3 : Finset (Ref sig .tc) := (Finset.univ.filter fun b : Ref sig .tc => ¬ b.isScoped) \ Finset.univ.image (Pipeline.arrRef spec3)

variable (ρ : Dev nD → PrngReg)

set_option backward.isDefEq.respectTransparency.types false in
/-- THE RUN, at any float instance: from any memory with zero counters every weakly fair execution of @main terminates,
    nothing faulting; every final memory has the result array at contents region 3's proof data allows after its last
    write-back, and each argument array as launched. -/
theorem run_main (hbody3 : ∀ c, BodyObligationLoose (dat3 (F := F) (V4 m) c) (defs₀ (F := F)) Variants.none () Set.univ fgt3) :
    θ_run defs (onTc (τ := τ) (main (F := F))) ⟨m, fun _ => 0, ρ⟩ (fun r => ∀ c : Dev nD,
      ((dat3 (V4 m) c).toRForget fgt3).ArrAt 2 cfg3.N (r.2.mem ((c.tc : Thread nD τ).loc main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.RDat.θ_run_regions_kit (pcfgs (F := F)) adm (rdats m fgt3) () cellOf_inj emb₁ defs₀ 𝒱₀ L lv m ρ main (segs m fgt3 hbody3)
    (fun c Q => by rw [main_run m fgt3 hbody3 c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m fgt3)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => (∀ b ∈ rest3, s.mem ((c : Thread nD τ).loc b) = V4 m c b)
      ∧ ∀ w, (rdats m fgt3 3 c).ArrAt w cfg3.N (s.mem ((cfg3.win w).arr.view.loc (c : Thread nD τ))))
    (hfin := fun c s' => by
      iintro ⟨⟨Hrest, Ha, -⟩, HSI⟩
      unfold Pipeline.unscopedRest
      ihave H1 := (pointsTo_read_all rest3 (fun b => (c : Thread nD τ).loc b) (V4 m c) s') $$ [Hrest HSI]
      · isplitl [Hrest] <;> iassumption
      icases H1 with ⟨%h1, HSI⟩
      ihave H2 := (Pipeline.RDat.arrays_read (p := 3) (pcfgs (F := F)) adm (rdats m fgt3) arr_whole3 c cfg3.N s') $$ [Ha HSI]
      · isplitl [Ha] <;> iassumption
      icases H2 with ⟨%h2, HSI⟩
      imodintro
      isplitr; · ipureintro; exact ⟨h1, h2⟩
      iexact HSI)
    (hQ := fun s h c =>
      ⟨(h c).2 2,
        ((h c).1 main_arg0 (by decide)).trans (V4_main_arg0 m c),
        ((h c).1 main_arg1 (by decide)).trans (V4_main_arg1 m c),
        ((h c).1 main_arg2 (by decide)).trans (V4_main_arg2 m c),
        ((h c).1 main_arg3 (by decide)).trans (V4_main_arg3 m c),
        ((h c).1 main_arg4 (by decide)).trans (V4_main_arg4 m c),
        ((h c).1 main_arg5 (by decide)).trans (V4_main_arg5 m c)⟩)

end Cert.Kernel.Hand

end
-- ==== Proof.Ref.lean ====
import proofs.«109806_g28449863369143_cont_9to1_491_7_alg».proof.Proof.Gen.ReferenceIdeal.Run
import proofs.«109806_g28449863369143_cont_9to1_491_7_alg».proof.Proof.Gen.ReferenceIdeal.Read
import proofs.«109806_g28449863369143_cont_9to1_491_7_alg».proof.Proof.Spec
import Idealize.ShloMosaic.PureOps.Ideal
import Idealize.ShloMosaic.PureOps.Ideal.Laws
import Idealize.ShloMosaic.Lib.ValueIdx

/-
  The reference side. The reference program computes, stage by stage,
    r0 = x · W1,  r1 = adj · r0,  r2 = max(r1, 0),  r3 = r2 · Wmu,  r4 = adj · r3,  r5 = r2 · Wsig,  r6 = adj · r5,
    r9 = r4 + eps * exp r6,  r10 = r9ᵀ,  r11 = r9 · r10.
  Each matrix product read at an index is a finite sum of products of the operands at two indices built from the
  output index and the summation variable; each of those indices is the pair of its two coordinates. So, stage by
  stage, every intermediate array is the specification's array of the same name: r0 = s1, r2 = hid, r3 and r5 = s3,
  r4 and r6 = m16, r9 = zr, and r11 = dec, the transpose read at (k, j) being r9 at (j, k).
  No sum is re-ordered or re-associated: each equality is a sum compared term by term.
-/

noncomputable section

namespace Cert.ReferenceIdeal.RefValue

open Cert.ReferenceIdeal Cert.ReferenceIdeal.Gen
open Idealize.ShloMosaic Idealize.ShloMosaic.TcCoe Idealize.SL.Sem Idealize.ShloMosaic.StableHlo
open Idealize.ShloMosaic.ValueIdx

/-! ## Indices -/

/-- A rank-2 index whose coordinates are `a` and `b` is the pair `(a, b)`. -/
theorem ix2_of {n0 n1 : Nat} (j : (⟨2, ![n0, n1]⟩ : Shape).Idx) (a : Fin n0) (b : Fin n1)
    (h0 : j 0 = a) (h1 : j 1 = b) : j = ix2 a b := by
  subst h0 h1
  exact eq_ix2 j

theorem lidx0 (i : S10000x32.Idx) (k : Fin 128) : Read.lidx_main_v0 i k = ix2 (i 0) k := ix2_of _ _ _ rfl rfl
theorem ridx0 (i : S10000x32.Idx) (k : Fin 128) : Read.ridx_main_v0 i k = ix2 k (i 1) := ix2_of _ _ _ rfl rfl
theorem lidx1 (i : S10000x32.Idx) (k : Fin 10000) : Read.lidx_main_v1 i k = ix2 (i 0) k := ix2_of _ _ _ rfl rfl
theorem ridx1 (i : S10000x32.Idx) (k : Fin 10000) : Read.ridx_main_v1 i k = ix2 k (i 1) := ix2_of _ _ _ rfl rfl
theorem lidx3 (i : S10000x16.Idx) (k : Fin 32) : Read.lidx_main_v3 i k = ix2 (i 0) k := ix2_of _ _ _ rfl rfl
theorem ridx3 (i : S10000x16.Idx) (k : Fin 32) : Read.ridx_main_v3 i k = ix2 k (i 1) := ix2_of _ _ _ rfl rfl
theorem lidx4 (i : S10000x16.Idx) (k : Fin 10000) : Read.lidx_main_v4 i k = ix2 (i 0) k := ix2_of _ _ _ rfl rfl
theorem ridx4 (i : S10000x16.Idx) (k : Fin 10000) : Read.ridx_main_v4 i k = ix2 k (i 1) := ix2_of _ _ _ rfl rfl
theorem lidx5 (i : S10000x16.Idx) (k : Fin 32) : Read.lidx_main_v5 i k = ix2 (i 0) k := ix2_of _ _ _ rfl rfl
theorem ridx5 (i : S10000x16.Idx) (k : Fin 32) : Read.ridx_main_v5 i k = ix2 k (i 1) := ix2_of _ _ _ rfl rfl
theorem lidx6 (i : S10000x16.Idx) (k : Fin 10000) : Read.lidx_main_v6 i k = ix2 (i 0) k := ix2_of _ _ _ rfl rfl
theorem ridx6 (i : S10000x16.Idx) (k : Fin 10000) : Read.ridx_main_v6 i k = ix2 k (i 1) := ix2_of _ _ _ rfl rfl
theorem lidx11 (i : S10000x10000.Idx) (k : Fin 16) : Read.lidx_main_v11 i k = ix2 (i 0) k := ix2_of _ _ _ rfl rfl
/-- The transpose read at the right operand's index (k, j) is the untransposed array at (j, k). -/
theorem tidx11 (i : S10000x10000.Idx) (k : Fin 16) :
    Read.idx_main_v10 (Read.ridx_main_v11 i k) = ix2 (i 1) k := ix2_of _ _ _ rfl rfl

/-! ## The stages -/

/-- r0 = x · W1 is the specification's first projection. -/
theorem v0_eq (x : FVec Ideal S10000x128 .f32) (w1 : FVec Ideal S128x32 .f32) :
    Read.val_main_v0 (F := Ideal) x w1 = Cert.Spec.s1 x w1 := by
  funext i
  rw [Read.val_main_v0_apply]
  simp only [Cert.Spec.s1]
  refine Finset.sum_congr rfl fun k _ => ?_
  rw [lidx0, ridx0]
  rfl

/-- r2 = max(adj · r0, 0), the zero literal being the extended real 0, is the specification's hidden layer. -/
theorem v2_eq (x : FVec Ideal S10000x128 .f32) (adj : FVec Ideal S10000x10000 .f32) (w1 : FVec Ideal S128x32 .f32) :
    Read.val_main_v2 (F := Ideal) x adj w1 = Cert.Spec.hid adj (Cert.Spec.s1 x w1) := by
  funext i
  rw [Read.val_main_v2_apply, Read.val_main_v1_apply, Read.val_main_call0_v0_apply, Read.val_main_call0_cst_apply, v0_eq]
  simp only [Ideal.maximumf_def, Ideal.ofBits_def, Ideal.ofBits_zero_f32, Cert.Spec.hid]
  congr 1
  refine Finset.sum_congr rfl fun n _ => ?_
  rw [lidx1, ridx1]
  rfl

/-- r3 = r2 · Wmu is the specification's projection of the hidden layer by the first head's weights. -/
theorem v3_eq (x : FVec Ideal S10000x128 .f32) (adj : FVec Ideal S10000x10000 .f32) (w1 : FVec Ideal S128x32 .f32)
    (w : FVec Ideal S32x16 .f32) :
    Read.val_main_v3 (F := Ideal) x adj w1 w = Cert.Spec.s3 (Cert.Spec.hid adj (Cert.Spec.s1 x w1)) w := by
  funext i
  rw [Read.val_main_v3_apply, v2_eq]
  simp only [Cert.Spec.s3]
  refine Finset.sum_congr rfl fun k _ => ?_
  rw [lidx3, ridx3]
  rfl

/-- r5 = r2 · Wsig is the specification's projection of the hidden layer by the second head's weights. -/
theorem v5_eq (x : FVec Ideal S10000x128 .f32) (adj : FVec Ideal S10000x10000 .f32) (w1 : FVec Ideal S128x32 .f32)
    (w : FVec Ideal S32x16 .f32) :
    Read.val_main_v5 (F := Ideal) x adj w1 w = Cert.Spec.s3 (Cert.Spec.hid adj (Cert.Spec.s1 x w1)) w := by
  funext i
  rw [Read.val_main_v5_apply, v2_eq]
  simp only [Cert.Spec.s3]
  refine Finset.sum_congr rfl fun k _ => ?_
  rw [lidx5, ridx5]
  rfl

/-- r4 = adj · r3 is the specification's second adjacency pass on the first head. -/
theorem v4_eq (x : FVec Ideal S10000x128 .f32) (adj : FVec Ideal S10000x10000 .f32) (w1 : FVec Ideal S128x32 .f32)
    (w : FVec Ideal S32x16 .f32) :
    Read.val_main_v4 (F := Ideal) x adj w1 w
      = Cert.Spec.m16 adj (Cert.Spec.s3 (Cert.Spec.hid adj (Cert.Spec.s1 x w1)) w) := by
  funext i
  rw [Read.val_main_v4_apply, v3_eq]
  simp only [Cert.Spec.m16]
  refine Finset.sum_congr rfl fun n _ => ?_
  rw [lidx4, ridx4]
  rfl

/-- r6 = adj · r5 is the specification's second adjacency pass on the second head. -/
theorem v6_eq (x : FVec Ideal S10000x128 .f32) (adj : FVec Ideal S10000x10000 .f32) (w1 : FVec Ideal S128x32 .f32)
    (w : FVec Ideal S32x16 .f32) :
    Read.val_main_v6 (F := Ideal) x adj w1 w
      = Cert.Spec.m16 adj (Cert.Spec.s3 (Cert.Spec.hid adj (Cert.Spec.s1 x w1)) w) := by
  funext i
  rw [Read.val_main_v6_apply, v5_eq]
  simp only [Cert.Spec.m16]
  refine Finset.sum_congr rfl fun n _ => ?_
  rw [lidx6, ridx6]
  rfl

/-- r9 = r4 + eps * exp r6 is the specification's sample, entry by entry. -/
theorem v9_eq (x : FVec Ideal S10000x128 .f32) (adj : FVec Ideal S10000x10000 .f32) (eps : FVec Ideal S10000x16 .f32)
    (w1 : FVec Ideal S128x32 .f32) (wmu wsig : FVec Ideal S32x16 .f32) :
    Read.val_main_v9 (F := Ideal) x adj eps w1 wmu wsig
      = Cert.Spec.zr (Cert.Spec.m16 adj (Cert.Spec.s3 (Cert.Spec.hid adj (Cert.Spec.s1 x w1)) wmu))
          (Cert.Spec.m16 adj (Cert.Spec.s3 (Cert.Spec.hid adj (Cert.Spec.s1 x w1)) wsig)) eps := by
  funext i
  rw [Read.val_main_v9_apply, Read.val_main_v8_apply, Read.val_main_v7_apply, v4_eq, v6_eq]
  simp only [Ideal.addf_def, Ideal.mulf_def, Ideal.hostUnary_exp_def, Cert.Spec.zr]

/-- the reference's last stage is the specification's term -/
theorem result_eq (x : FVec Ideal S10000x128 .f32) (adj : FVec Ideal S10000x10000 .f32) (eps : FVec Ideal S10000x16 .f32) (w1 : FVec Ideal S128x32 .f32) (wmu wsig : FVec Ideal S32x16 .f32) :
    Cert.ReferenceIdeal.Read.val_main_v11 (F := Ideal) x adj eps w1 wmu wsig
      = Cert.Spec.dec (Cert.Spec.zr (Cert.Spec.m16 adj (Cert.Spec.s3 (Cert.Spec.hid adj (Cert.Spec.s1 x w1)) wmu)) (Cert.Spec.m16 adj (Cert.Spec.s3 (Cert.Spec.hid adj (Cert.Spec.s1 x w1)) wsig)) eps) := by
  funext i
  rw [Read.val_main_v11_apply]
  simp only [Cert.Spec.dec]
  refine Finset.sum_congr rfl fun k _ => ?_
  rw [Read.val_main_v10_apply, v9_eq, lidx11, tidx11]
  rfl

/-- the reference's run with its result at the specification's term of the launch contents, the arguments unchanged -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = Cert.Spec.dec (Cert.Spec.zr (Cert.Spec.m16 (m ((c.tc : Thread nD τ).loc main_arg1)) (Cert.Spec.s3 (Cert.Spec.hid (m ((c.tc : Thread nD τ).loc main_arg1)) (Cert.Spec.s1 (m ((c.tc : Thread nD τ).loc main_arg0)) (m ((c.tc : Thread nD τ).loc main_arg3)))) (m ((c.tc : Thread nD τ).loc main_arg4)))) (Cert.Spec.m16 (m ((c.tc : Thread nD τ).loc main_arg1)) (Cert.Spec.s3 (Cert.Spec.hid (m ((c.tc : Thread nD τ).loc main_arg1)) (Cert.Spec.s1 (m ((c.tc : Thread nD τ).loc main_arg0)) (m ((c.tc : Thread nD τ).loc main_arg3)))) (m ((c.tc : Thread nD τ).loc main_arg5)))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c => ⟨(h c).1.trans
      ((Read.val_main_v11_eq (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))).trans
        (result_eq _ _ _ _ _ _)), (h c).2⟩)
    (Cert.ReferenceIdeal.Value.run (F := Ideal) m ρ)

end Cert.ReferenceIdeal.RefValue

end
-- ==== Proof.lean ====
/-
  The certificate's five conjuncts.

  The kernel computes, in four passes over one TensorCore, z · zᵀ with z = mu + eps * exp(log_sig) and
  [mu | log_sig] = adj · (max(adj · (x · W1), 0) · [Wmu | Wsig]); the reference computes mu and log_sig by two separate
  products with Wmu and Wsig. At the extended reals every product is a plain finite sum of products, format changes are
  the identity, and column j of a product with the concatenation [Wmu | Wsig] is column j of the product with Wmu
  (j < 16) or column j − 16 of the product with Wsig: the two results are equal entry by entry with no sum re-associated
  and no use of finiteness.

  The frames: the kernel's program runs as one host stretch and four regions (the run module); read at the word level
  nothing is said of what the last region leaves in its result, read at the extended reals the result is named. The
  reference's frame is its run with the result dropped. The idealization rewrote nothing, so `preserves` is trivial.
-/
import proofs.«109806_g28449863369143_cont_9to1_491_7_alg».proof.Defs
import proofs.«109806_g28449863369143_cont_9to1_491_7_alg».proof.Proof.Gen.Kernel
import proofs.«109806_g28449863369143_cont_9to1_491_7_alg».proof.Proof.Gen.KernelIdeal
import proofs.«109806_g28449863369143_cont_9to1_491_7_alg».proof.Proof.Gen.ReferenceIdeal
import proofs.«109806_g28449863369143_cont_9to1_491_7_alg».proof.Proof.Gen.Pre_finite_inputs
import proofs.«109806_g28449863369143_cont_9to1_491_7_alg».proof.Proof.KI.Chain
import proofs.«109806_g28449863369143_cont_9to1_491_7_alg».proof.Proof.K.Run
import proofs.«109806_g28449863369143_cont_9to1_491_7_alg».proof.Proof.Ref
import Idealize.ShloMosaic.Adequacy
import Idealize.ShloMosaic.Init

noncomputable section

namespace Cert.Proof

open Idealize.ShloMosaic Idealize.SL.Sem

/-- The word-level program terminates, faults nowhere and leaves its arguments as launched: its run with every window of
    the last region forgotten, the result's contents dropped. -/
theorem frame_k : Cert.frame_Kernel := fun m ρ _ =>
  (θ_run (Cert.Kernel.defs (F := Bits)) _ _).mono (fun _ h c => (h c).2)
    (Cert.Kernel.Hand.run_main (F := Bits) m Cert.Kernel.Hand.allForgotten ρ
      (fun c => Cert.Kernel.Hand.body_forget3 (Cert.Kernel.Hand.V4 m) c))

/-- The idealized program's frame: its run at the extended reals with the result dropped. -/
theorem frame_ki : Cert.frame_KernelIdeal := fun m ρ _ =>
  (θ_run (Cert.KernelIdeal.defs (F := Ideal)) _ _).mono (fun _ h c => (h c).2) (Cert.KernelIdeal.Hand.run_value m ρ)

/-- The reference's frame: its run with the result dropped. -/
theorem frame_ri : Cert.frame_ReferenceIdeal := fun m ρ _ =>
  (θ_run (Cert.ReferenceIdeal.defs (F := Ideal)) _ _).mono (fun _ h c => (h c).2) (Cert.ReferenceIdeal.RefValue.run m ρ)

/-- Both programs, run from memories agreeing on the arguments, end with the result at ONE term of the arguments. -/
theorem algebraic : Cert.algebraic_KernelIdeal_ReferenceIdeal := by
  intro m ρ m' ρ' _ hagree
  refine ⟨fun c => Cert.KernelIdeal.Hand.resultTerm m c, Cert.KernelIdeal.Hand.run_value m ρ, ?_⟩
  refine (θ_run (Cert.ReferenceIdeal.defs (F := Ideal)) _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
